-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x28x28 : Shape := ⟨3, ![131072, 28, 28]⟩
abbrev S131072x25 : Shape := ⟨2, ![131072, 25]⟩
abbrev S131072x784 : Shape := ⟨2, ![131072, 784]⟩
abbrev S50x784 : Shape := ⟨2, ![50, 784]⟩
abbrev S50 : Shape := ⟨1, ![50]⟩
abbrev S25x50 : Shape := ⟨2, ![25, 50]⟩
abbrev S25 : Shape := ⟨1, ![25]⟩
abbrev S100x25 : Shape := ⟨2, ![100, 25]⟩
abbrev S100 : Shape := ⟨1, ![100]⟩
abbrev S784x100 : Shape := ⟨2, ![784, 100]⟩
abbrev S784 : Shape := ⟨1, ![784]⟩
abbrev S_ : Shape := ⟨0, ![]⟩

class Facts : Prop where
  bcast_S_S131072x28x28 : S_.BroadcastsInDim S131072x28x28 (![] : Fin 0 → Fin S131072x28x28.rank)
  reducesTo_S131072x28x28_S_d0_1_2 : S131072x28x28.ReducesTo [0, 1, 2] S_
  h_S_ : 0 < S_.numel
  bcast_S_S131072x25 : S_.BroadcastsInDim S131072x25 (![] : Fin 0 → Fin S131072x25.rank)
  reducesTo_S131072x25_S_d0_1 : S131072x25.ReducesTo [0, 1] S_
  bcast_S_S131072x784 : S_.BroadcastsInDim S131072x784 (![] : Fin 0 → Fin S131072x784.rank)
  reducesTo_S131072x784_S_d0_1 : S131072x784.ReducesTo [0, 1] S_
  bcast_S_S50x784 : S_.BroadcastsInDim S50x784 (![] : Fin 0 → Fin S50x784.rank)
  reducesTo_S50x784_S_d0_1 : S50x784.ReducesTo [0, 1] S_
  bcast_S_S50 : S_.BroadcastsInDim S50 (![] : Fin 0 → Fin S50.rank)
  reducesTo_S50_S_d0 : S50.ReducesTo [0] S_
  bcast_S_S25x50 : S_.BroadcastsInDim S25x50 (![] : Fin 0 → Fin S25x50.rank)
  reducesTo_S25x50_S_d0_1 : S25x50.ReducesTo [0, 1] S_
  bcast_S_S25 : S_.BroadcastsInDim S25 (![] : Fin 0 → Fin S25.rank)
  reducesTo_S25_S_d0 : S25.ReducesTo [0] S_
  bcast_S_S100x25 : S_.BroadcastsInDim S100x25 (![] : Fin 0 → Fin S100x25.rank)
  reducesTo_S100x25_S_d0_1 : S100x25.ReducesTo [0, 1] S_
  bcast_S_S100 : S_.BroadcastsInDim S100 (![] : Fin 0 → Fin S100.rank)
  reducesTo_S100_S_d0 : S100.ReducesTo [0] S_
  bcast_S_S784x100 : S_.BroadcastsInDim S784x100 (![] : Fin 0 → Fin S784x100.rank)
  reducesTo_S784x100_S_d0_1 : S784x100.ReducesTo [0, 1] S_
  bcast_S_S784 : S_.BroadcastsInDim S784 (![] : Fin 0 → Fin S784.rank)
  reducesTo_S784_S_d0 : S784.ReducesTo [0] S_

variable [Facts]

def fn_part4 {F : FTy → Type} [FloatOps F] (main_arg14 : FVec F S784 .f32) (main_v63 : IVec S_ 1) (main_v67 : IVec S_ 1) : IVec S_ 1 :=
  let main_v68 : IVec S_ 1 := andi main_v63 main_v67
  let main_v69 : FVec F S784 .f32 := Host.absf main_arg14
  let main_cst_26 : FVec F S_ .f32 := constant S_ .f32 0x7F800000#32
  let main_v70 : FVec F S784 .f32 := broadcastInDim S784 ![] bcast_S_S784 main_cst_26
  let main_v71 : IVec S784 1 := cmpf .olt main_v69 main_v70
  let main_c_27 : IVec S_ 1 := constantI S_ 1 1#1
  let main_v72 : IVec S_ 1 := (fun x v => Host.reduce IntOp.andi x v reducesTo_S784_S_d0 h_S_) main_v71 main_c_27
  let main_v73 : IVec S_ 1 := andi main_v68 main_v72
  main_v73

def fn_part3 {F : FTy → Type} [FloatOps F] (main_arg11 : FVec F S784x100 .f32) (main_arg12 : FVec F S784 .f32) (main_arg13 : FVec F S784x100 .f32) (main_arg14 : FVec F S784 .f32) (main_v48 : IVec S_ 1) (main_v49 : FVec F S100 .f32) (main_v50 : FVec F S100 .f32) : IVec S_ 1 :=
  let main_v51 : IVec S100 1 := cmpf .olt main_v49 main_v50
  let main_c_19 : IVec S_ 1 := constantI S_ 1 1#1
  let main_v52 : IVec S_ 1 := (fun x v => Host.reduce IntOp.andi x v reducesTo_S100_S_d0 h_S_) main_v51 main_c_19
  let main_v53 : IVec S_ 1 := andi main_v48 main_v52
  let main_v54 : FVec F S784x100 .f32 := Host.absf main_arg11
  let main_cst_20 : FVec F S_ .f32 := constant S_ .f32 0x7F800000#32
  let main_v55 : FVec F S784x100 .f32 := broadcastInDim S784x100 ![] bcast_S_S784x100 main_cst_20
  let main_v56 : IVec S784x100 1 := cmpf .olt main_v54 main_v55
  let main_c_21 : IVec S_ 1 := constantI S_ 1 1#1
  let main_v57 : IVec S_ 1 := (fun x v => Host.reduce IntOp.andi x v reducesTo_S784x100_S_d0_1 h_S_) main_v56 main_c_21
  let main_v58 : IVec S_ 1 := andi main_v53 main_v57
  let main_v59 : FVec F S784 .f32 := Host.absf main_arg12
  let main_cst_22 : FVec F S_ .f32 := constant S_ .f32 0x7F800000#32
  let main_v60 : FVec F S784 .f32 := broadcastInDim S784 ![] bcast_S_S784 main_cst_22
  let main_v61 : IVec S784 1 := cmpf .olt main_v59 main_v60
  let main_c_23 : IVec S_ 1 := constantI S_ 1 1#1
  let main_v62 : IVec S_ 1 := (fun x v => Host.reduce IntOp.andi x v reducesTo_S784_S_d0 h_S_) main_v61 main_c_23
  let main_v63 : IVec S_ 1 := andi main_v58 main_v62
  let main_v64 : FVec F S784x100 .f32 := Host.absf main_arg13
  let main_cst_24 : FVec F S_ .f32 := constant S_ .f32 0x7F800000#32
  let main_v65 : FVec F S784x100 .f32 := broadcastInDim S784x100 ![] bcast_S_S784x100 main_cst_24
  let main_v66 : IVec S784x100 1 := cmpf .olt main_v64 main_v65
  let main_c_25 : IVec S_ 1 := constantI S_ 1 1#1
  let main_v67 : IVec S_ 1 := (fun x v => Host.reduce IntOp.andi x v reducesTo_S784x100_S_d0_1 h_S_) main_v66 main_c_25
  fn_part4 (F := F) main_arg14 main_v63 main_v67

def fn_part2 {F : FTy → Type} [FloatOps F] (main_arg7 : FVec F S25x50 .f32) (main_arg8 : FVec F S25 .f32) (main_arg9 : FVec F S100x25 .f32) (main_arg10 : FVec F S100 .f32) (main_arg11 : FVec F S784x100 .f32) (main_arg12 : FVec F S784 .f32) (main_arg13 : FVec F S784x100 .f32) (main_arg14 : FVec F S784 .f32) (main_v33 : IVec S_ 1) : IVec S_ 1 :=
  let main_v34 : FVec F S25x50 .f32 := Host.absf main_arg7
  let main_cst_12 : FVec F S_ .f32 := constant S_ .f32 0x7F800000#32
  let main_v35 : FVec F S25x50 .f32 := broadcastInDim S25x50 ![] bcast_S_S25x50 main_cst_12
  let main_v36 : IVec S25x50 1 := cmpf .olt main_v34 main_v35
  let main_c_13 : IVec S_ 1 := constantI S_ 1 1#1
  let main_v37 : IVec S_ 1 := (fun x v => Host.reduce IntOp.andi x v reducesTo_S25x50_S_d0_1 h_S_) main_v36 main_c_13
  let main_v38 : IVec S_ 1 := andi main_v33 main_v37
  let main_v39 : FVec F S25 .f32 := Host.absf main_arg8
  let main_cst_14 : FVec F S_ .f32 := constant S_ .f32 0x7F800000#32
  let main_v40 : FVec F S25 .f32 := broadcastInDim S25 ![] bcast_S_S25 main_cst_14
  let main_v41 : IVec S25 1 := cmpf .olt main_v39 main_v40
  let main_c_15 : IVec S_ 1 := constantI S_ 1 1#1
  let main_v42 : IVec S_ 1 := (fun x v => Host.reduce IntOp.andi x v reducesTo_S25_S_d0 h_S_) main_v41 main_c_15
  let main_v43 : IVec S_ 1 := andi main_v38 main_v42
  let main_v44 : FVec F S100x25 .f32 := Host.absf main_arg9
  let main_cst_16 : FVec F S_ .f32 := constant S_ .f32 0x7F800000#32
  let main_v45 : FVec F S100x25 .f32 := broadcastInDim S100x25 ![] bcast_S_S100x25 main_cst_16
  let main_v46 : IVec S100x25 1 := cmpf .olt main_v44 main_v45
  let main_c_17 : IVec S_ 1 := constantI S_ 1 1#1
  let main_v47 : IVec S_ 1 := (fun x v => Host.reduce IntOp.andi x v reducesTo_S100x25_S_d0_1 h_S_) main_v46 main_c_17
  let main_v48 : IVec S_ 1 := andi main_v43 main_v47
  let main_v49 : FVec F S100 .f32 := Host.absf main_arg10
  let main_cst_18 : FVec F S_ .f32 := constant S_ .f32 0x7F800000#32
  let main_v50 : FVec F S100 .f32 := broadcastInDim S100 ![] bcast_S_S100 main_cst_18
  fn_part3 (F := F) main_arg11 main_arg12 main_arg13 main_arg14 main_v48 main_v49 main_v50

def fn_part1 {F : FTy → Type} [FloatOps F] (main_arg4 : FVec F S50 .f32) (main_arg5 : FVec F S25x50 .f32) (main_arg6 : FVec F S25 .f32) (main_arg7 : FVec F S25x50 .f32) (main_arg8 : FVec F S25 .f32) (main_arg9 : FVec F S100x25 .f32) (main_arg10 : FVec F S100 .f32) (main_arg11 : FVec F S784x100 .f32) (main_arg12 : FVec F S784 .f32) (main_arg13 : FVec F S784x100 .f32) (main_arg14 : FVec F S784 .f32) (main_v13 : IVec S_ 1) (main_v16 : IVec S50x784 1) : IVec S_ 1 :=
  let main_c_5 : IVec S_ 1 := constantI S_ 1 1#1
  let main_v17 : IVec S_ 1 := (fun x v => Host.reduce IntOp.andi x v reducesTo_S50x784_S_d0_1 h_S_) main_v16 main_c_5
  let main_v18 : IVec S_ 1 := andi main_v13 main_v17
  let main_v19 : FVec F S50 .f32 := Host.absf main_arg4
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S25x50 .f32 := Host.absf main_arg5
  let main_cst_8 : FVec F S_ .f32 := constant S_ .f32 0x7F800000#32
  let main_v25 : FVec F S25x50 .f32 := broadcastInDim S25x50 ![] bcast_S_S25x50 main_cst_8
  let main_v26 : IVec S25x50 1 := cmpf .olt main_v24 main_v25
  let main_c_9 : IVec S_ 1 := constantI S_ 1 1#1
  let main_v27 : IVec S_ 1 := (fun x v => Host.reduce IntOp.andi x v reducesTo_S25x50_S_d0_1 h_S_) main_v26 main_c_9
  let main_v28 : IVec S_ 1 := andi main_v23 main_v27
  let main_v29 : FVec F S25 .f32 := Host.absf main_arg6
  let main_cst_10 : FVec F S_ .f32 := constant S_ .f32 0x7F800000#32
  let main_v30 : FVec F S25 .f32 := broadcastInDim S25 ![] bcast_S_S25 main_cst_10
  let main_v31 : IVec S25 1 := cmpf .olt main_v29 main_v30
  let main_c_11 : IVec S_ 1 := constantI S_ 1 1#1
  let main_v32 : IVec S_ 1 := (fun x v => Host.reduce IntOp.andi x v reducesTo_S25_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S131072x28x28 .f32) (main_arg1 : FVec F S131072x25 .f32) (main_arg2 : FVec F S131072x784 .f32) (main_arg3 : FVec F S50x784 .f32) (main_arg4 : FVec F S50 .f32) (main_arg5 : FVec F S25x50 .f32) (main_arg6 : FVec F S25 .f32) (main_arg7 : FVec F S25x50 .f32) (main_arg8 : FVec F S25 .f32) (main_arg9 : FVec F S100x25 .f32) (main_arg10 : FVec F S100 .f32) (main_arg11 : FVec F S784x100 .f32) (main_arg12 : FVec F S784 .f32) (main_arg13 : FVec F S784x100 .f32) (main_arg14 : FVec F S784 .f32) : IVec S_ 1 :=
  let main_v0 : FVec F S131072x28x28 .f32 := Host.absf main_arg0
  let main_cst : FVec F S_ .f32 := constant S_ .f32 0x7F800000#32
  let main_v1 : FVec F S131072x28x28 .f32 := broadcastInDim S131072x28x28 ![] bcast_S_S131072x28x28 main_cst
  let main_v2 : IVec S131072x28x28 1 := cmpf .olt main_v0 main_v1
  let main_c : IVec S_ 1 := constantI S_ 1 1#1
  let main_v3 : IVec S_ 1 := (fun x v => Host.reduce IntOp.andi x v reducesTo_S131072x28x28_S_d0_1_2 h_S_) main_v2 main_c
  let main_v4 : FVec F S131072x25 .f32 := Host.absf main_arg1
  let main_cst_0 : FVec F S_ .f32 := constant S_ .f32 0x7F800000#32
  let main_v5 : FVec F S131072x25 .f32 := broadcastInDim S131072x25 ![] bcast_S_S131072x25 main_cst_0
  let main_v6 : IVec S131072x25 1 := cmpf .olt main_v4 main_v5
  let main_c_1 : IVec S_ 1 := constantI S_ 1 1#1
  let main_v7 : IVec S_ 1 := (fun x v => Host.reduce IntOp.andi x v reducesTo_S131072x25_S_d0_1 h_S_) main_v6 main_c_1
  let main_v8 : IVec S_ 1 := andi main_v3 main_v7
  let main_v9 : FVec F S131072x784 .f32 := Host.absf main_arg2
  let main_cst_2 : FVec F S_ .f32 := constant S_ .f32 0x7F800000#32
  let main_v10 : FVec F S131072x784 .f32 := broadcastInDim S131072x784 ![] bcast_S_S131072x784 main_cst_2
  let main_v11 : IVec S131072x784 1 := cmpf .olt main_v9 main_v10
  let main_c_3 : IVec S_ 1 := constantI S_ 1 1#1
  let main_v12 : IVec S_ 1 := (fun x v => Host.reduce IntOp.andi x v reducesTo_S131072x784_S_d0_1 h_S_) main_v11 main_c_3
  let main_v13 : IVec S_ 1 := andi main_v8 main_v12
  let main_v14 : FVec F S50x784 .f32 := Host.absf main_arg3
  let main_cst_4 : FVec F S_ .f32 := constant S_ .f32 0x7F800000#32
  let main_v15 : FVec F S50x784 .f32 := broadcastInDim S50x784 ![] bcast_S_S50x784 main_cst_4
  let main_v16 : IVec S50x784 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S131072x28x28 : Shape := ⟨3, ![131072, 28, 28]⟩
abbrev S131072x25 : Shape := ⟨2, ![131072, 25]⟩
abbrev S131072x784 : Shape := ⟨2, ![131072, 784]⟩
abbrev S50x784 : Shape := ⟨2, ![50, 784]⟩
abbrev S50 : Shape := ⟨1, ![50]⟩
abbrev S25x50 : Shape := ⟨2, ![25, 50]⟩
abbrev S25 : Shape := ⟨1, ![25]⟩
abbrev S100x25 : Shape := ⟨2, ![100, 25]⟩
abbrev S100 : Shape := ⟨1, ![100]⟩
abbrev S784x100 : Shape := ⟨2, ![784, 100]⟩
abbrev S784 : Shape := ⟨1, ![784]⟩
abbrev S784x50 : Shape := ⟨2, ![784, 50]⟩
abbrev S50x25 : Shape := ⟨2, ![50, 25]⟩
abbrev S25x100 : Shape := ⟨2, ![25, 100]⟩
abbrev S100x784 : Shape := ⟨2, ![100, 784]⟩
abbrev S1x50 : Shape := ⟨2, ![1, 50]⟩
abbrev S1x25 : Shape := ⟨2, ![1, 25]⟩
abbrev S1x100 : Shape := ⟨2, ![1, 100]⟩
abbrev S1x784 : Shape := ⟨2, ![1, 784]⟩
abbrev S1024x784 : Shape := ⟨2, ![1024, 784]⟩
abbrev S1024x25 : Shape := ⟨2, ![1024, 25]⟩
abbrev S1024x50 : Shape := ⟨2, ![1024, 50]⟩
abbrev S1024x100 : Shape := ⟨2, ![1024, 100]⟩

abbrev nBuf : Space → Nat
  | .hbm => 35
  | .vmem => 20
  | .smem => 0
  | _ => 0

abbrev bufTy : (tb : Table) → Fin (tcTables nBuf tb) → BufTy
  | .hbm, ⟨0, _⟩ => ⟨S131072x28x28, .f32⟩
  | .hbm, ⟨1, _⟩ => ⟨S131072x25, .f32⟩
  | .hbm, ⟨2, _⟩ => ⟨S131072x784, .f32⟩
  | .hbm, ⟨3, _⟩ => ⟨S50x784, .f32⟩
  | .hbm, ⟨4, _⟩ => ⟨S50, .f32⟩
  | .hbm, ⟨5, _⟩ => ⟨S25x50, .f32⟩
  | .hbm, ⟨6, _⟩ => ⟨S25, .f32⟩
  | .hbm, ⟨7, _⟩ => ⟨S25x50, .f32⟩
  | .hbm, ⟨8, _⟩ => ⟨S25, .f32⟩
  | .hbm, ⟨9, _⟩ => ⟨S100x25, .f32⟩
  | .hbm, ⟨10, _⟩ => ⟨S100, .f32⟩
  | .hbm, ⟨11, _⟩ => ⟨S784x100, .f32⟩
  | .hbm, ⟨12, _⟩ => ⟨S784, .f32⟩
  | .hbm, ⟨13, _⟩ => ⟨S784x100, .f32⟩
  | .hbm, ⟨14, _⟩ => ⟨S784, .f32⟩
  | .hbm, ⟨15, _⟩ => ⟨S131072x784, .f32⟩
  | .hbm, ⟨16, _⟩ => ⟨S784x50, .f32⟩
  | .hbm, ⟨17, _⟩ => ⟨S784x50, .bf16⟩
  | .hbm, ⟨18, _⟩ => ⟨S50x25, .f32⟩
  | .hbm, ⟨19, _⟩ => ⟨S50x25, .bf16⟩
  | .hbm, ⟨20, _⟩ => ⟨S50x25, .f32⟩
  | .hbm, ⟨21, _⟩ => ⟨S50x25, .bf16⟩
  | .hbm, ⟨22, _⟩ => ⟨S25x100, .f32⟩
  | .hbm, ⟨23, _⟩ => ⟨S25x100, .bf16⟩
  | .hbm, ⟨24, _⟩ => ⟨S100x784, .f32⟩
  | .hbm, ⟨25, _⟩ => ⟨S100x784, .bf16⟩
  | .hbm, ⟨26, _⟩ => ⟨S100x784, .f32⟩
  | .hbm, ⟨27, _⟩ => ⟨S100x784, .bf16⟩
  | .hbm, ⟨28, _⟩ => ⟨S1x50, .f32⟩
  | .hbm, ⟨29, _⟩ => ⟨S1x25, .f32⟩
  | .hbm, ⟨30, _⟩ => ⟨S1x25, .f32⟩
  | .hbm, ⟨31, _⟩ => ⟨S1x100, .f32⟩
  | .hbm, ⟨32, _⟩ => ⟨S1x784, .f32⟩
  | .hbm, ⟨33, _⟩ => ⟨S1x784, .f32⟩
  | .hbm, ⟨34, _⟩ => ⟨S131072x784, .f32⟩
  | .local _ .vmem, ⟨0, _⟩ => ⟨S1024x784, .f32⟩
  | .local _ .vmem, ⟨1, _⟩ => ⟨S1024x784, .f32⟩
  | .local _ .vmem, ⟨2, _⟩ => ⟨S1024x25, .f32⟩
  | .local _ .vmem, ⟨3, _⟩ => ⟨S1024x25, .f32⟩
  | .local _ .vmem, ⟨4, _⟩ => ⟨S1024x784, .f32⟩
  | .local _ .vmem, ⟨5, _⟩ => ⟨S1024x784, .f32⟩
  | .local _ .vmem, ⟨6, _⟩ => ⟨S784x50, .bf16⟩
  | .local _ .vmem, ⟨7, _⟩ => ⟨S1x50, .f32⟩
  | .local _ .vmem, ⟨8, _⟩ => ⟨S50x25, .bf16⟩
  | .local _ .vmem, ⟨9, _⟩ => ⟨S1x25, .f32⟩
  | .local _ .vmem, ⟨10, _⟩ => ⟨S50x25, .bf16⟩
  | .local _ .vmem, ⟨11, _⟩ => ⟨S1x25, .f32⟩
  | .local _ .vmem, ⟨12, _⟩ => ⟨S25x100, .bf16⟩
  | .local _ .vmem, ⟨13, _⟩ => ⟨S1x100, .f32⟩
  | .local _ .vmem, ⟨14, _⟩ => ⟨S100x784, .bf16⟩
  | .local _ .vmem, ⟨15, _⟩ => ⟨S1x784, .f32⟩
  | .local _ .vmem, ⟨16, _⟩ => ⟨S100x784, .bf16⟩
  | .local _ .vmem, ⟨17, _⟩ => ⟨S1x784, .f32⟩
  | .local _ .vmem, ⟨18, _⟩ => ⟨S1024x784, .f32⟩
  | .local _ .vmem, ⟨19, _⟩ => ⟨S1024x784, .f32⟩
  | _, _ => ⟨S131072x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x784 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S784x50 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S50x25 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x25 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50x25 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x25 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S25x100 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x100 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S100x784 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x784 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S100x784 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x784 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x784 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S131072x28x28_S131072x784 : S131072x28x28.ShapeCasts S131072x784
  transposes_S50x784_S784x50_1_0 : S50x784.Transposes [1, 0] S784x50
  bitsLt_bf16_f32 : FTy.bits .bf16 < FTy.bits .f32
  transposes_S25x50_S50x25_1_0 : S25x50.Transposes [1, 0] S50x25
  transposes_S100x25_S25x100_1_0 : S100x25.Transposes [1, 0] S25x100
  transposes_S784x100_S100x784_1_0 : S784x100.Transposes [1, 0] S100x784
  shapeCasts_S50_S1x50 : S50.ShapeCasts S1x50
  shapeCasts_S25_S1x25 : S25.ShapeCasts S1x25
  shapeCasts_S100_S1x100 : S100.ShapeCasts S1x100
  shapeCasts_S784_S1x784 : S784.ShapeCasts S1x784
  inb_S1024x784_S1024x784_0_0 : ∀ a, (![0, 0] : Fin 2 → Nat) a + S1024x784.size a ≤ S1024x784.size a
  h_S1024x784 : 0 < S1024x784.numel
  shapeCasts_S1024x784_S1024x784 : S1024x784.ShapeCasts S1024x784
  inb_S784x50_S784x50_0_0 : ∀ a, (![0, 0] : Fin 2 → Nat) a + S784x50.size a ≤ S784x50.size a
  h_S784x50 : 0 < S784x50.numel
  shapeCasts_S784x50_S784x50 : S784x50.ShapeCasts S784x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S1024x50 : S1x50.Broadcasts S1024x50
  inb_S50x25_S50x25_0_0 : ∀ a, (![0, 0] : Fin 2 → Nat) a + S50x25.size a ≤ S50x25.size a
  h_S50x25 : 0 < S50x25.numel
  shapeCasts_S50x25_S50x25 : S50x25.ShapeCasts S50x25
  inb_S1x25_S1x25_0_0 : ∀ a, (![0, 0] : Fin 2 → Nat) a + S1x25.size a ≤ S1x25.size a
  h_S1x25 : 0 < S1x25.numel
  shapeCasts_S1x25_S1x25 : S1x25.ShapeCasts S1x25
  broadcasts_S1x25_S1024x25 : S1x25.Broadcasts S1024x25
  inb_S1024x25_S1024x25_0_0 : ∀ a, (![0, 0] : Fin 2 → Nat) a + S1024x25.size a ≤ S1024x25.size a
  h_S1024x25 : 0 < S1024x25.numel
  inb_S25x100_S25x100_0_0 : ∀ a, (![0, 0] : Fin 2 → Nat) a + S25x100.size a ≤ S25x100.size a
  h_S25x100 : 0 < S25x100.numel
  shapeCasts_S25x100_S25x100 : S25x100.ShapeCasts S25x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S1024x100 : S1x100.Broadcasts S1024x100
  inb_S100x784_S100x784_0_0 : ∀ a, (![0, 0] : Fin 2 → Nat) a + S100x784.size a ≤ S100x784.size a
  h_S100x784 : 0 < S100x784.numel
  shapeCasts_S100x784_S100x784 : S100x784.ShapeCasts S100x784
  inb_S1x784_S1x784_0_0 : ∀ a, (![0, 0] : Fin 2 → Nat) a + S1x784.size a ≤ S1x784.size a
  h_S1x784 : 0 < S1x784.numel
  shapeCasts_S1x784_S1x784 : S1x784.ShapeCasts S1x784
  broadcasts_S1x784_S1024x784 : S1x784.Broadcasts S1024x784
  dot_S1024x784_S784x50_S1024x50_1_0_0_1_n_n_wf : DotDims.WF S1024x784 S784x50 S1024x50 [1] [0] [0] [1] [] []
  dot_S1024x50_S50x25_S1024x25_1_0_0_1_n_n_wf : DotDims.WF S1024x50 S50x25 S1024x25 [1] [0] [0] [1] [] []
  dot_S1024x25_S25x100_S1024x100_1_0_0_1_n_n_wf : DotDims.WF S1024x25 S25x100 S1024x100 [1] [0] [0] [1] [] []
  dot_S1024x100_S100x784_S1024x784_1_0_0_1_n_n_wf : DotDims.WF S1024x100 S100x784 S1024x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S131072x784.size a
  hwx0_0 : ∀ i : grid0.Coords, EltTy.bits .f32 = 32 ∨ (Rect.block (s := S131072x784) S1024x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x25.size a ≤ S131072x25.size a
  hwx0_1 : ∀ i : grid0.Coords, EltTy.bits .f32 = 32 ∨ (Rect.block (s := S131072x25) S1024x25.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x784.size a ≤ S131072x784.size a
  hwx0_2 : ∀ i : grid0.Coords, EltTy.bits .f32 = 32 ∨ (Rect.block (s := S131072x784) S1024x784.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S784x50.size a ≤ S784x50.size a
  hwx0_3 : ∀ i : grid0.Coords, EltTy.bits .bf16 = 32 ∨ (Rect.block (s := S784x50) S784x50.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x50.size a ≤ S1x50.size a
  hwx0_4 : ∀ i : grid0.Coords, EltTy.bits .f32 = 32 ∨ (Rect.block (s := S1x50) S1x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S50x25.size a ≤ S50x25.size a
  hwx0_5 : ∀ i : grid0.Coords, EltTy.bits .bf16 = 32 ∨ (Rect.block (s := S50x25) S50x25.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x25.size a ≤ S1x25.size a
  hwx0_6 : ∀ i : grid0.Coords, EltTy.bits .f32 = 32 ∨ (Rect.block (s := S1x25) S1x25.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S50x25.size a ≤ S50x25.size a
  hwx0_7 : ∀ i : grid0.Coords, EltTy.bits .bf16 = 32 ∨ (Rect.block (s := S50x25) S50x25.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x25.size a ≤ S1x25.size a
  hwx0_8 : ∀ i : grid0.Coords, EltTy.bits .f32 = 32 ∨ (Rect.block (s := S1x25) S1x25.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S25x100.size a ≤ S25x100.size a
  hwx0_9 : ∀ i : grid0.Coords, EltTy.bits .bf16 = 32 ∨ (Rect.block (s := S25x100) S25x100.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x100.size a ≤ S1x100.size a
  hwx0_10 : ∀ i : grid0.Coords, EltTy.bits .f32 = 32 ∨ (Rect.block (s := S1x100) S1x100.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S100x784.size a ≤ S100x784.size a
  hwx0_11 : ∀ i : grid0.Coords, EltTy.bits .bf16 = 32 ∨ (Rect.block (s := S100x784) S100x784.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x784.size a ≤ S1x784.size a
  hwx0_12 : ∀ i : grid0.Coords, EltTy.bits .f32 = 32 ∨ (Rect.block (s := S1x784) S1x784.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S100x784.size a ≤ S100x784.size a
  hwx0_13 : ∀ i : grid0.Coords, EltTy.bits .bf16 = 32 ∨ (Rect.block (s := S100x784) S100x784.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x784.size a ≤ S1x784.size a
  hwx0_14 : ∀ i : grid0.Coords, EltTy.bits .f32 = 32 ∨ (Rect.block (s := S1x784) S1x784.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x784.size a ≤ S131072x784.size a
  hwx0_15 : ∀ i : grid0.Coords, EltTy.bits .f32 = 32 ∨ (Rect.block (s := S131072x784) S1024x784.size (cc0_transform_15 i) (hinb0_15 i)).WholeWords (EltTy.packing .f32)

variable [Facts₀]

def dot_S1024x784_S784x50_S1024x50_1_0_0_1_n_n : DotDims S1024x784 S784x50 S1024x50 where
  lhsContracting := [1]
  rhsContracting := [0]
  lhsNonContracting := [0]
  rhsNonContracting := [1]
  lhsBatch := []
  rhsBatch := []
  wf := dot_S1024x784_S784x50_S1024x50_1_0_0_1_n_n_wf
def dot_S1024x50_S50x25_S1024x25_1_0_0_1_n_n : DotDims S1024x50 S50x25 S1024x25 where
  lhsContracting := [1]
  rhsContracting := [0]
  lhsNonContracting := [0]
  rhsNonContracting := [1]
  lhsBatch := []
  rhsBatch := []
  wf := dot_S1024x50_S50x25_S1024x25_1_0_0_1_n_n_wf
def dot_S1024x25_S25x100_S1024x100_1_0_0_1_n_n : DotDims S1024x25 S25x100 S1024x100 where
  lhsContracting := [1]
  rhsContracting := [0]
  lhsNonContracting := [0]
  rhsNonContracting := [1]
  lhsBatch := []
  rhsBatch := []
  wf := dot_S1024x25_S25x100_S1024x100_1_0_0_1_n_n_wf
def dot_S1024x100_S100x784_S1024x784_1_0_0_1_n_n : DotDims S1024x100 S100x784 S1024x784 where
  lhsContracting := [1]
  rhsContracting := [0]
  lhsNonContracting := [0]
  rhsNonContracting := [1]
  lhsBatch := []
  rhsBatch := []
  wf := dot_S1024x100_S100x784_S1024x784_1_0_0_1_n_n_wf

abbrev win0_0 : Pipeline.Window sig grid0 :=
  Pipeline.Window.ofSpec (Memref.whole main_v0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x25.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x784.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S784x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S50x25.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x25.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S50x25.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x25.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S25x100.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S1x100.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S100x784.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x784.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S100x784.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v18) S1x784.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v19) S1024x784.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S131072x28x28 : Shape := ⟨3, ![131072, 28, 28]⟩
abbrev S131072x25 : Shape := ⟨2, ![131072, 25]⟩
abbrev S131072x784 : Shape := ⟨2, ![131072, 784]⟩
abbrev S50x784 : Shape := ⟨2, ![50, 784]⟩
abbrev S50 : Shape := ⟨1, ![50]⟩
abbrev S25x50 : Shape := ⟨2, ![25, 50]⟩
abbrev S25 : Shape := ⟨1, ![25]⟩
abbrev S100x25 : Shape := ⟨2, ![100, 25]⟩
abbrev S100 : Shape := ⟨1, ![100]⟩
abbrev S784x100 : Shape := ⟨2, ![784, 100]⟩
abbrev S784 : Shape := ⟨1, ![784]⟩
abbrev S784x50 : Shape := ⟨2, ![784, 50]⟩
abbrev S131072x50 : Shape := ⟨2, ![131072, 50]⟩
abbrev S1x50 : Shape := ⟨2, ![1, 50]⟩
abbrev S50x25 : Shape := ⟨2, ![50, 25]⟩
abbrev S1x25 : Shape := ⟨2, ![1, 25]⟩
abbrev S_ : Shape := ⟨0, ![]⟩
abbrev S25x100 : Shape := ⟨2, ![25, 100]⟩
abbrev S131072x100 : Shape := ⟨2, ![131072, 100]⟩
abbrev S1x100 : Shape := ⟨2, ![1, 100]⟩
abbrev S100x784 : Shape := ⟨2, ![100, 784]⟩
abbrev S1x784 : Shape := ⟨2, ![1, 784]⟩

abbrev nBuf : Space → Nat
  | .hbm => 60
  | .vmem => 0
  | .smem => 0
  | _ => 0

abbrev bufTy : (tb : Table) → Fin (tcTables nBuf tb) → BufTy
  | .hbm, ⟨0, _⟩ => ⟨S131072x28x28, .f32⟩
  | .hbm, ⟨1, _⟩ => ⟨S131072x25, .f32⟩
  | .hbm, ⟨2, _⟩ => ⟨S131072x784, .f32⟩
  | .hbm, ⟨3, _⟩ => ⟨S50x784, .f32⟩
  | .hbm, ⟨4, _⟩ => ⟨S50, .f32⟩
  | .hbm, ⟨5, _⟩ => ⟨S25x50, .f32⟩
  | .hbm, ⟨6, _⟩ => ⟨S25, .f32⟩
  | .hbm, ⟨7, _⟩ => ⟨S25x50, .f32⟩
  | .hbm, ⟨8, _⟩ => ⟨S25, .f32⟩
  | .hbm, ⟨9, _⟩ => ⟨S100x25, .f32⟩
  | .hbm, ⟨10, _⟩ => ⟨S100, .f32⟩
  | .hbm, ⟨11, _⟩ => ⟨S784x100, .f32⟩
  | .hbm, ⟨12, _⟩ => ⟨S784, .f32⟩
  | .hbm, ⟨13, _⟩ => ⟨S784x100, .f32⟩
  | .hbm, ⟨14, _⟩ => ⟨S784, .f32⟩
  | .hbm, ⟨15, _⟩ => ⟨S131072x784, .f32⟩
  | .hbm, ⟨16, _⟩ => ⟨S784x50, .f32⟩
  | .hbm, ⟨17, _⟩ => ⟨S131072x50, .f32⟩
  | .hbm, ⟨18, _⟩ => ⟨S1x50, .f32⟩
  | .hbm, ⟨19, _⟩ => ⟨S131072x50, .f32⟩
  | .hbm, ⟨20, _⟩ => ⟨S131072x50, .f32⟩
  | .hbm, ⟨21, _⟩ => ⟨S131072x50, .f32⟩
  | .hbm, ⟨22, _⟩ => ⟨S50x25, .f32⟩
  | .hbm, ⟨23, _⟩ => ⟨S131072x25, .f32⟩
  | .hbm, ⟨24, _⟩ => ⟨S1x25, .f32⟩
  | .hbm, ⟨25, _⟩ => ⟨S131072x25, .f32⟩
  | .hbm, ⟨26, _⟩ => ⟨S131072x25, .f32⟩
  | .hbm, ⟨27, _⟩ => ⟨S50x25, .f32⟩
  | .hbm, ⟨28, _⟩ => ⟨S131072x25, .f32⟩
  | .hbm, ⟨29, _⟩ => ⟨S1x25, .f32⟩
  | .hbm, ⟨30, _⟩ => ⟨S131072x25, .f32⟩
  | .hbm, ⟨31, _⟩ => ⟨S131072x25, .f32⟩
  | .hbm, ⟨32, _⟩ => ⟨S_, .f32⟩
  | .hbm, ⟨33, _⟩ => ⟨S131072x25, .f32⟩
  | .hbm, ⟨34, _⟩ => ⟨S131072x25, .f32⟩
  | .hbm, ⟨35, _⟩ => ⟨S131072x25, .f32⟩
  | .hbm, ⟨36, _⟩ => ⟨S131072x25, .f32⟩
  | .hbm, ⟨37, _⟩ => ⟨S131072x25, .f32⟩
  | .hbm, ⟨38, _⟩ => ⟨S25x100, .f32⟩
  | .hbm, ⟨39, _⟩ => ⟨S131072x100, .f32⟩
  | .hbm, ⟨40, _⟩ => ⟨S1x100, .f32⟩
  | .hbm, ⟨41, _⟩ => ⟨S131072x100, .f32⟩
  | .hbm, ⟨42, _⟩ => ⟨S131072x100, .f32⟩
  | .hbm, ⟨43, _⟩ => ⟨S131072x100, .f32⟩
  | .hbm, ⟨44, _⟩ => ⟨S100x784, .f32⟩
  | .hbm, ⟨45, _⟩ => ⟨S131072x784, .f32⟩
  | .hbm, ⟨46, _⟩ => ⟨S1x784, .f32⟩
  | .hbm, ⟨47, _⟩ => ⟨S131072x784, .f32⟩
  | .hbm, ⟨48, _⟩ => ⟨S131072x784, .f32⟩
  | .hbm, ⟨49, _⟩ => ⟨S100x784, .f32⟩
  | .hbm, ⟨50, _⟩ => ⟨S131072x784, .f32⟩
  | .hbm, ⟨51, _⟩ => ⟨S1x784, .f32⟩
  | .hbm, ⟨52, _⟩ => ⟨S131072x784, .f32⟩
  | .hbm, ⟨53, _⟩ => ⟨S131072x784, .f32⟩
  | .hbm, ⟨54, _⟩ => ⟨S_, .f32⟩
  | .hbm, ⟨55, _⟩ => ⟨S131072x784, .f32⟩
  | .hbm, ⟨56, _⟩ => ⟨S131072x784, .f32⟩
  | .hbm, ⟨57, _⟩ => ⟨S131072x784, .f32⟩
  | .hbm, ⟨58, _⟩ => ⟨S131072x784, .f32⟩
  | .hbm, ⟨59, _⟩ => ⟨S131072x784, .f32⟩
  | _, _ => ⟨S131072x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  shapeCasts_S131072x28x28_S131072x784 : S131072x28x28.ShapeCasts S131072x784
  transposes_S50x784_S784x50_1_0 : S50x784.Transposes [1, 0] S784x50
  bcast_S50_S1x50_1 : S50.BroadcastsInDim S1x50 (![1] : Fin 1 → Fin S1x50.rank)
  bcast_S1x50_S131072x50_0_1 : S1x50.BroadcastsInDim S131072x50 (![0, 1] : Fin 2 → Fin S131072x50.rank)
  transposes_S25x50_S50x25_1_0 : S25x50.Transposes [1, 0] S50x25
  bcast_S25_S1x25_1 : S25.BroadcastsInDim S1x25 (![1] : Fin 1 → Fin S1x25.rank)
  bcast_S1x25_S131072x25_0_1 : S1x25.BroadcastsInDim S131072x25 (![0, 1] : Fin 2 → Fin S131072x25.rank)
  bcast_S_S131072x25 : S_.BroadcastsInDim S131072x25 (![] : Fin 0 → Fin S131072x25.rank)
  transposes_S100x25_S25x100_1_0 : S100x25.Transposes [1, 0] S25x100
  bcast_S100_S1x100_1 : S100.BroadcastsInDim S1x100 (![1] : Fin 1 → Fin S1x100.rank)
  bcast_S1x100_S131072x100_0_1 : S1x100.BroadcastsInDim S131072x100 (![0, 1] : Fin 2 → Fin S131072x100.rank)
  transposes_S784x100_S100x784_1_0 : S784x100.Transposes [1, 0] S100x784
  bcast_S784_S1x784_1 : S784.BroadcastsInDim S1x784 (![1] : Fin 1 → Fin S1x784.rank)
  bcast_S1x784_S131072x784_0_1 : S1x784.BroadcastsInDim S131072x784 (![0, 1] : Fin 2 → Fin S131072x784.rank)
  bcast_S_S131072x784 : S_.BroadcastsInDim S131072x784 (![] : Fin 0 → Fin S131072x784.rank)
  dot_S131072x784_S784x50_S131072x50_1_0_0_1_n_n_wf : DotDims.WF S131072x784 S784x50 S131072x50 [1] [0] [0] [1] [] []
  dot_S131072x50_S50x25_S131072x25_1_0_0_1_n_n_wf : DotDims.WF S131072x50 S50x25 S131072x25 [1] [0] [0] [1] [] []
  dot_S131072x25_S25x100_S131072x100_1_0_0_1_n_n_wf : DotDims.WF S131072x25 S25x100 S131072x100 [1] [0] [0] [1] [] []
  dot_S131072x100_S100x784_S131072x784_1_0_0_1_n_n_wf : DotDims.WF S131072x100 S100x784 S131072x784 [1] [0] [0] [1] [] []

variable [Facts₀]

def dot_S131072x784_S784x50_S131072x50_1_0_0_1_n_n : DotDims S131072x784 S784x50 S131072x50 where
  lhsContracting := [1]
  rhsContracting := [0]
  lhsNonContracting := [0]
  rhsNonContracting := [1]
  lhsBatch := []
  rhsBatch := []
  wf := dot_S131072x784_S784x50_S131072x50_1_0_0_1_n_n_wf
def dot_S131072x50_S50x25_S131072x25_1_0_0_1_n_n : DotDims S131072x50 S50x25 S131072x25 where
  lhsContracting := [1]
  rhsContracting := [0]
  lhsNonContracting := [0]
  rhsNonContracting := [1]
  lhsBatch := []
  rhsBatch := []
  wf := dot_S131072x50_S50x25_S131072x25_1_0_0_1_n_n_wf
def dot_S131072x25_S25x100_S131072x100_1_0_0_1_n_n : DotDims S131072x25 S25x100 S131072x100 where
  lhsContracting := [1]
  rhsContracting := [0]
  lhsNonContracting := [0]
  rhsNonContracting := [1]
  lhsBatch := []
  rhsBatch := []
  wf := dot_S131072x25_S25x100_S131072x100_1_0_0_1_n_n_wf
def dot_S131072x100_S100x784_S131072x784_1_0_0_1_n_n : DotDims S131072x100 S100x784 S131072x784 where
  lhsContracting := [1]
  rhsContracting := [0]
  lhsNonContracting := [0]
  rhsNonContracting := [1]
  lhsBatch := []
  rhsBatch := []
  wf := dot_S131072x100_S100x784_S131072x784_1_0_0_1_n_n_wf

class Facts : Prop extends Facts₀ where

variable [Facts]
-- ==== Proof.KernelBlocks.lean ====
/-
  The kernel's sixteen windows, tile by tile.  The grid has 128 tiles; tile t covers batch rows 1024·t … 1024·t + 1023.
  The three data windows (flattened input, latent noise, output noise) and the output window move with the tile:
  their block at tile t is those rows of the array, all columns.  The twelve weight and bias windows stay put: their
  block at every tile is the whole array.  The arrays themselves are what the host left before the call: the images
  flattened to 784 columns, each weight matrix transposed to (input, output) order and rounded to the narrow format
  (the identity on the extended reals), each bias vector laid out as one row, the two noise arrays untouched.
-/
import proofs.«151756_j7782480740489_1_alg».proof.Proof.Gen.KernelIdeal.Value
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.Vae.KernelBlocks

open Idealize.ShloMosaic Idealize.ShloMosaic.TcCoe Idealize.SL.Sem Idealize.ShloMosaic.ValueIdx Idealize.ShloMosaic.StableHlo
open Cert.KernelIdeal Cert.KernelIdeal.Gen Cert.KernelIdeal.Value

variable (m : (ℓ : Loc nD τ sig) → Buf (Elt Ideal) ℓ)

/-! ## Where each window's block sits, decided over the 128 tiles -/

/-- The moving windows are at block row t, block column 0. -/
theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = t.val ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)
theorem at15 : ∀ t : Fin cfg0.N, win0_15.index t (0 : Fin 2) = t.val ∧ win0_15.index t (1 : Fin 2) = 0 :=
  (by decide +kernel : ∀ t : Fin grid0.N, _)
/-- The resident windows are at block (0, 0). -/
theorem at3 : ∀ t : Fin cfg0.N, win0_3.index t (0 : Fin 2) = 0 ∧ win0_3.index t (1 : Fin 2) = 0 :=
  (by decide +kernel : ∀ t : Fin grid0.N, _)
theorem at4 : ∀ t : Fin cfg0.N, win0_4.index t (0 : Fin 2) = 0 ∧ win0_4.index t (1 : Fin 2) = 0 :=
  (by decide +kernel : ∀ t : Fin grid0.N, _)
theorem at5 : ∀ t : Fin cfg0.N, win0_5.index t (0 : Fin 2) = 0 ∧ win0_5.index t (1 : Fin 2) = 0 :=
  (by decide +kernel : ∀ t : Fin grid0.N, _)
theorem at6 : ∀ t : Fin cfg0.N, win0_6.index t (0 : Fin 2) = 0 ∧ win0_6.index t (1 : Fin 2) = 0 :=
  (by decide +kernel : ∀ t : Fin grid0.N, _)
theorem at7 : ∀ t : Fin cfg0.N, win0_7.index t (0 : Fin 2) = 0 ∧ win0_7.index t (1 : Fin 2) = 0 :=
  (by decide +kernel : ∀ t : Fin grid0.N, _)
theorem at8 : ∀ t : Fin cfg0.N, win0_8.index t (0 : Fin 2) = 0 ∧ win0_8.index t (1 : Fin 2) = 0 :=
  (by decide +kernel : ∀ t : Fin grid0.N, _)
theorem at9 : ∀ t : Fin cfg0.N, win0_9.index t (0 : Fin 2) = 0 ∧ win0_9.index t (1 : Fin 2) = 0 :=
  (by decide +kernel : ∀ t : Fin grid0.N, _)
theorem at10 : ∀ t : Fin cfg0.N, win0_10.index t (0 : Fin 2) = 0 ∧ win0_10.index t (1 : Fin 2) = 0 :=
  (by decide +kernel : ∀ t : Fin grid0.N, _)
theorem at11 : ∀ t : Fin cfg0.N, win0_11.index t (0 : Fin 2) = 0 ∧ win0_11.index t (1 : Fin 2) = 0 :=
  (by decide +kernel : ∀ t : Fin grid0.N, _)
theorem at12 : ∀ t : Fin cfg0.N, win0_12.index t (0 : Fin 2) = 0 ∧ win0_12.index t (1 : Fin 2) = 0 :=
  (by decide +kernel : ∀ t : Fin grid0.N, _)
theorem at13 : ∀ t : Fin cfg0.N, win0_13.index t (0 : Fin 2) = 0 ∧ win0_13.index t (1 : Fin 2) = 0 :=
  (by decide +kernel : ∀ t : Fin grid0.N, _)
theorem at14 : ∀ t : Fin cfg0.N, win0_14.index t (0 : Fin 2) = 0 ∧ win0_14.index t (1 : Fin 2) = 0 :=
  (by decide +kernel : ∀ t : Fin grid0.N, _)

/-- The batch row that row p of tile t is. -/
def row (t : Fin cfg0.N) (p : Fin 1024) : Fin 131072 :=
  ⟨t.val * 1024 + p.val, by have h : cfg0.N = 128 := N_0; have := t.isLt; have := p.isLt; omega⟩

/-- Entry y of the output's block at tile t sits in the array at batch row `row t (y 0)`, the same column. -/
theorem out_emb (t : Fin cfg0.N) (y : S1024x784.Idx) :
    ((cfg0.win 15).blk t).view.emb y = (ix2 (row t (y 0)) (y 1) : S131072x784.Idx) := by
  have h := at15 t
  funext a
  apply Fin.ext
  match a with
  | ⟨0, _⟩ => show win0_15.index t (0 : Fin 2) * 1024 + 1 * (y 0).val = t.val * 1024 + (y 0).val; rw [h.1]; omega
  | ⟨1, _⟩ => show win0_15.index t (1 : Fin 2) * 784 + 1 * (y 1).val = (y 1).val; rw [h.2]; omega

/-! ## A block's entry as its array's entry -/

/- The one argument, for every window: entry y of the block at tile t is the array's entry whose coordinate on each
   axis is (block index) × (block extent) + (y's coordinate); with the window's block index known (h) that is the
   claimed coordinate (k0, k1).  A names the window's array, S its shape, W the window, R × C the block's extents. -/
set_option hygiene false in
local macro "block_entry " A:term:max S:term:max W:term:max R:term:max C:term:max h:term:max k0:term:max k1:term:max : tactic =>
  `(tactic| (
    unfold iblk
    rw [View.read_apply]
    show (V m c $A : ($S).Idx → EReal) _ = (V m c $A : ($S).Idx → EReal) _
    refine congrArg (V m c $A : ($S).Idx → EReal) (funext fun a => Fin.ext ?_)
    match a with
    | ⟨0, _⟩ => show ($W).index t (0 : Fin 2) * $R + 1 * (y 0).val = $k0; rw [($h).1]; omega
    | ⟨1, _⟩ => show ($W).index t (1 : Fin 2) * $C + 1 * (y 1).val = $k1; rw [($h).2]; omega))

/-- The flattened input's block at tile t is rows 1024·t … of the array. -/
theorem blk0_apply (c : Dev nD) (t : Fin cfg0.N) (y : S1024x784.Idx) :
    (iblk m c 0 t : Vec Ideal S1024x784 .f32) y = (V m c main_v0 : S131072x784.Idx → EReal) (ix2 (row t (y 0)) (y 1)) := by
  block_entry main_v0 S131072x784 win0_0 1024 784 (at0 t) (t.val * 1024 + (y 0).val) ((y 1).val)
/-- The latent noise's block at tile t is rows 1024·t … of the array. -/
theorem blk1_apply (c : Dev nD) (t : Fin cfg0.N) (y : S1024x25.Idx) :
    (iblk m c 1 t : Vec Ideal S1024x25 .f32) y = (V m c main_arg1 : S131072x25.Idx → EReal) (ix2 (row t (y 0)) (y 1)) := by
  block_entry main_arg1 S131072x25 win0_1 1024 25 (at1 t) (t.val * 1024 + (y 0).val) ((y 1).val)
/-- The output noise's block at tile t is rows 1024·t … of the array. -/
theorem blk2_apply (c : Dev nD) (t : Fin cfg0.N) (y : S1024x784.Idx) :
    (iblk m c 2 t : Vec Ideal S1024x784 .f32) y = (V m c main_arg2 : S131072x784.Idx → EReal) (ix2 (row t (y 0)) (y 1)) := by
  block_entry main_arg2 S131072x784 win0_2 1024 784 (at2 t) (t.val * 1024 + (y 0).val) ((y 1).val)
/-- Each resident window's block, at every tile, is its whole array. -/
theorem blk3_apply (c : Dev nD) (t : Fin cfg0.N) (y : S784x50.Idx) :
    (iblk m c 3 t : Vec Ideal S784x50 .bf16) y = (V m c main_v2 : S784x50.Idx → EReal) y := by
  block_entry main_v2 S784x50 win0_3 784 50 (at3 t) ((y 0).val) ((y 1).val)
theorem blk4_apply (c : Dev nD) (t : Fin cfg0.N) (y : S1x50.Idx) :
    (iblk m c 4 t : Vec Ideal S1x50 .f32) y = (V m c main_v13 : S1x50.Idx → EReal) y := by
  block_entry main_v13 S1x50 win0_4 1 50 (at4 t) ((y 0).val) ((y 1).val)
theorem blk5_apply (c : Dev nD) (t : Fin cfg0.N) (y : S50x25.Idx) :
    (iblk m c 5 t : Vec Ideal S50x25 .bf16) y = (V m c main_v4 : S50x25.Idx → EReal) y := by
  block_entry main_v4 S50x25 win0_5 50 25 (at5 t) ((y 0).val) ((y 1).val)
theorem blk6_apply (c : Dev nD) (t : Fin cfg0.N) (y : S1x25.Idx) :
    (iblk m c 6 t : Vec Ideal S1x25 .f32) y = (V m c main_v14 : S1x25.Idx → EReal) y := by
  block_entry main_v14 S1x25 win0_6 1 25 (at6 t) ((y 0).val) ((y 1).val)
theorem blk7_apply (c : Dev nD) (t : Fin cfg0.N) (y : S50x25.Idx) :
    (iblk m c 7 t : Vec Ideal S50x25 .bf16) y = (V m c main_v6 : S50x25.Idx → EReal) y := by
  block_entry main_v6 S50x25 win0_7 50 25 (at7 t) ((y 0).val) ((y 1).val)
theorem blk8_apply (c : Dev nD) (t : Fin cfg0.N) (y : S1x25.Idx) :
    (iblk m c 8 t : Vec Ideal S1x25 .f32) y = (V m c main_v15 : S1x25.Idx → EReal) y := by
  block_entry main_v15 S1x25 win0_8 1 25 (at8 t) ((y 0).val) ((y 1).val)
theorem blk9_apply (c : Dev nD) (t : Fin cfg0.N) (y : S25x100.Idx) :
    (iblk m c 9 t : Vec Ideal S25x100 .bf16) y = (V m c main_v8 : S25x100.Idx → EReal) y := by
  block_entry main_v8 S25x100 win0_9 25 100 (at9 t) ((y 0).val) ((y 1).val)
theorem blk10_apply (c : Dev nD) (t : Fin cfg0.N) (y : S1x100.Idx) :
    (iblk m c 10 t : Vec Ideal S1x100 .f32) y = (V m c main_v16 : S1x100.Idx → EReal) y := by
  block_entry main_v16 S1x100 win0_10 1 100 (at10 t) ((y 0).val) ((y 1).val)
theorem blk11_apply (c : Dev nD) (t : Fin cfg0.N) (y : S100x784.Idx) :
    (iblk m c 11 t : Vec Ideal S100x784 .bf16) y = (V m c main_v10 : S100x784.Idx → EReal) y := by
  block_entry main_v10 S100x784 win0_11 100 784 (at11 t) ((y 0).val) ((y 1).val)
theorem blk12_apply (c : Dev nD) (t : Fin cfg0.N) (y : S1x784.Idx) :
    (iblk m c 12 t : Vec Ideal S1x784 .f32) y = (V m c main_v17 : S1x784.Idx → EReal) y := by
  block_entry main_v17 S1x784 win0_12 1 784 (at12 t) ((y 0).val) ((y 1).val)
theorem blk13_apply (c : Dev nD) (t : Fin cfg0.N) (y : S100x784.Idx) :
    (iblk m c 13 t : Vec Ideal S100x784 .bf16) y = (V m c main_v12 : S100x784.Idx → EReal) y := by
  block_entry main_v12 S100x784 win0_13 100 784 (at13 t) ((y 0).val) ((y 1).val)
theorem blk14_apply (c : Dev nD) (t : Fin cfg0.N) (y : S1x784.Idx) :
    (iblk m c 14 t : Vec Ideal S1x784 .f32) y = (V m c main_v18 : S1x784.Idx → EReal) y := by
  block_entry main_v18 S1x784 win0_14 1 784 (at14 t) ((y 0).val) ((y 1).val)

/-! ## What the host left in the arrays before the call -/

/-- The region finds the images flattened: the host reshaped them before the call. -/
theorem found_main_v0 (c : Dev nD) : (V m c main_v0 : S131072x784.Idx → EReal)
    = shapeCast S131072x784 (m ((c : Thread nD τ).loc main_arg0)) shapeCasts_S131072x28x28_S131072x784 := by
  dsimp only [V, hostOps0]; after_results; rfl

/-- The region finds each weight matrix transposed and rounded to the narrow format (the identity here). -/
theorem found_main_v2 (c : Dev nD) : (V m c main_v2 : S784x50.Idx → EReal)
    = (truncf (F := Ideal) .bf16 (transpose S784x50 [1, 0] (m ((c : Thread nD τ).loc main_arg3)) transposes_S50x784_S784x50_1_0) bitsLt_bf16_f32 : FVec Ideal S784x50 .bf16) := by
  dsimp only [V, hostOps0]; after_results
theorem found_main_v4 (c : Dev nD) : (V m c main_v4 : S50x25.Idx → EReal)
    = (truncf (F := Ideal) .bf16 (transpose S50x25 [1, 0] (m ((c : Thread nD τ).loc main_arg5)) transposes_S25x50_S50x25_1_0) bitsLt_bf16_f32 : FVec Ideal S50x25 .bf16) := by
  dsimp only [V, hostOps0]; after_results
theorem found_main_v6 (c : Dev nD) : (V m c main_v6 : S50x25.Idx → EReal)
    = (truncf (F := Ideal) .bf16 (transpose S50x25 [1, 0] (m ((c : Thread nD τ).loc main_arg7)) transposes_S25x50_S50x25_1_0) bitsLt_bf16_f32 : FVec Ideal S50x25 .bf16) := by
  dsimp only [V, hostOps0]; after_results
theorem found_main_v8 (c : Dev nD) : (V m c main_v8 : S25x100.Idx → EReal)
    = (truncf (F := Ideal) .bf16 (transpose S25x100 [1, 0] (m ((c : Thread nD τ).loc main_arg9)) transposes_S100x25_S25x100_1_0) bitsLt_bf16_f32 : FVec Ideal S25x100 .bf16) := by
  dsimp only [V, hostOps0]; after_results
theorem found_main_v10 (c : Dev nD) : (V m c main_v10 : S100x784.Idx → EReal)
    = (truncf (F := Ideal) .bf16 (transpose S100x784 [1, 0] (m ((c : Thread nD τ).loc main_arg11)) transposes_S784x100_S100x784_1_0) bitsLt_bf16_f32 : FVec Ideal S100x784 .bf16) := by
  dsimp only [V, hostOps0]; after_results
theorem found_main_v12 (c : Dev nD) : (V m c main_v12 : S100x784.Idx → EReal)
    = (truncf (F := Ideal) .bf16 (transpose S100x784 [1, 0] (m ((c : Thread nD τ).loc main_arg13)) transposes_S784x100_S100x784_1_0) bitsLt_bf16_f32 : FVec Ideal S100x784 .bf16) := by
  dsimp only [V, hostOps0]; after_results

/-- The region finds each bias vector as one row. -/
theorem found_main_v13 (c : Dev nD) : (V m c main_v13 : S1x50.Idx → EReal)
    = shapeCast S1x50 (m ((c : Thread nD τ).loc main_arg4)) shapeCasts_S50_S1x50 := by
  dsimp only [V, hostOps0]; after_results; rfl
theorem found_main_v14 (c : Dev nD) : (V m c main_v14 : S1x25.Idx → EReal)
    = shapeCast S1x25 (m ((c : Thread nD τ).loc main_arg6)) shapeCasts_S25_S1x25 := by
  dsimp only [V, hostOps0]; after_results; rfl
theorem found_main_v15 (c : Dev nD) : (V m c main_v15 : S1x25.Idx → EReal)
    = shapeCast S1x25 (m ((c : Thread nD τ).loc main_arg8)) shapeCasts_S25_S1x25 := by
  dsimp only [V, hostOps0]; after_results; rfl
theorem found_main_v16 (c : Dev nD) : (V m c main_v16 : S1x100.Idx → EReal)
    = shapeCast S1x100 (m ((c : Thread nD τ).loc main_arg10)) shapeCasts_S100_S1x100 := by
  dsimp only [V, hostOps0]; after_results; rfl
theorem found_main_v17 (c : Dev nD) : (V m c main_v17 : S1x784.Idx → EReal)
    = shapeCast S1x784 (m ((c : Thread nD τ).loc main_arg12)) shapeCasts_S784_S1x784 := by
  dsimp only [V, hostOps0]; after_results; rfl
theorem found_main_v18 (c : Dev nD) : (V m c main_v18 : S1x784.Idx → EReal)
    = shapeCast S1x784 (m ((c : Thread nD τ).loc main_arg14)) shapeCasts_S784_S1x784 := by
  dsimp only [V, hostOps0]; after_results; rfl

end Cert.Vae.KernelBlocks

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.Layers.lean ====
/-
  The network both programs compute, read one batch row at a time on the extended reals.

  A fully connected layer sends a row v (K entries) to the row  q ↦ (Σ_l v l · w l q) + b q  (N entries), the
  weights w indexed (input, output).  The encoder is one such layer followed by tanh (the hidden row, 50 entries),
  then two layers side by side giving a mean row and a log-variance row (25 entries each); the latent row is
  mean + exp (½ · log-variance) · noise.  The decoder repeats the pattern: a layer and tanh (100 entries), two
  layers (784 entries each), and the same sampling formula with the second noise row.  Nothing in a row's result
  depends on any other row of the batch.

  Below: that row function, and the two spellings of one layer applied to a stack of M rows, each read at one
  entry (p, q) as the row function of row p — the vector unit's (a product into the zero accumulator plus a
  one-row bias broadcast down the rows) and the host's (its product plus the bias vector broadcast in two steps).
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«151756_j7782480740489_1_alg».proof.Proof.LibMatmulPlain

noncomputable section

namespace Cert.Vae

open Idealize.ShloMosaic Idealize.ShloMosaic.ValueIdx Cert.Gcn

/-- One fully connected layer at one row: the weighted sums of the row's entries plus the bias. -/
def aff {K N : ℕ} (w : Fin K → Fin N → EReal) (b : Fin N → EReal) (v : Fin K → EReal) (q : Fin N) : EReal :=
  (∑ l : Fin K, v l * w l q) + b q

/-- The number one half, as the single-precision word both programs spell it with. -/
def half : EReal := Ideal.ofBits .f32 0x3F000000#32

/-- The reparameterised sample at one row: mean + exp (½ · log-variance) · noise. -/
def sample {N : ℕ} (mu ls eps : Fin N → EReal) (a : Fin N) : EReal :=
  mu a + Ideal.exp (half * ls a) * eps a

/-- The encoder's hidden row. -/
def encHidden (w1 : Fin 784 → Fin 50 → EReal) (b1 : Fin 50 → EReal) (x : Fin 784 → EReal) (j : Fin 50) : EReal :=
  Ideal.tanh (aff w1 b1 x j)

/-- The latent row. -/
def latent (w1 : Fin 784 → Fin 50 → EReal) (b1 : Fin 50 → EReal) (w2 : Fin 50 → Fin 25 → EReal) (b2 : Fin 25 → EReal)
    (w3 : Fin 50 → Fin 25 → EReal) (b3 : Fin 25 → EReal) (x : Fin 784 → EReal) (ez : Fin 25 → EReal) (a : Fin 25) : EReal :=
  sample (aff w2 b2 (encHidden w1 b1 x)) (aff w3 b3 (encHidden w1 b1 x)) ez a

/-- The decoder's hidden row. -/
def decHidden (w1 : Fin 784 → Fin 50 → EReal) (b1 : Fin 50 → EReal) (w2 : Fin 50 → Fin 25 → EReal) (b2 : Fin 25 → EReal)
    (w3 : Fin 50 → Fin 25 → EReal) (b3 : Fin 25 → EReal) (w4 : Fin 25 → Fin 100 → EReal) (b4 : Fin 100 → EReal)
    (x : Fin 784 → EReal) (ez : Fin 25 → EReal) (q : Fin 100) : EReal :=
  Ideal.tanh (aff w4 b4 (latent w1 b1 w2 b2 w3 b3 x ez) q)

/-- The whole network at one row: the resampled reconstruction (784 entries). -/
def net (w1 : Fin 784 → Fin 50 → EReal) (b1 : Fin 50 → EReal) (w2 : Fin 50 → Fin 25 → EReal) (b2 : Fin 25 → EReal)
    (w3 : Fin 50 → Fin 25 → EReal) (b3 : Fin 25 → EReal) (w4 : Fin 25 → Fin 100 → EReal) (b4 : Fin 100 → EReal)
    (w5 : Fin 100 → Fin 784 → EReal) (b5 : Fin 784 → EReal) (w6 : Fin 100 → Fin 784 → EReal) (b6 : Fin 784 → EReal)
    (x : Fin 784 → EReal) (ez : Fin 25 → EReal) (ex : Fin 784 → EReal) (o : Fin 784) : EReal :=
  sample (aff w5 b5 (decHidden w1 b1 w2 b2 w3 b3 w4 b4 x ez)) (aff w6 b6 (decHidden w1 b1 w2 b2 w3 b3 w4 b4 x ez)) ex o

variable {M K N : ℕ}

/-- The vector unit's layer on a stack of M rows, at entry (p, q): the product into the zero accumulator is the sum
    over the contracted coordinate, and the one bias row broadcast down the rows reads that row at q. -/
theorem dense_unit_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂)
    (r : FVec Ideal ⟨2, ![1, N]⟩ .f32) (hb : (⟨2, ![1, N]⟩ : Shape).Broadcasts ⟨2, ![M, N]⟩) (p : Fin M) (q : Fin N) :
    addf (matmul D prec A B (constant (F := Ideal) ⟨2, ![M, N]⟩ .f32 0x00000000#32)) (broadcastTo ⟨2, ![M, N]⟩ r hb) (ix2 p q)
      = aff (fun l q => B (ix2 l q)) (fun q => r (ix2 (0 : Fin 1) q)) (fun l => A (ix2 p l)) q := by
  rw [addf_apply, matmul_plain_apply D hD, broadcastTo_1b_ab_apply]
  rfl

/-- The bias vector broadcast first to one row and then down M rows reads, at (p, q), the vector at q. -/
theorem host_bias_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => show 0 = if (1 : ℕ) = 1 then 0 else p.val; rw [if_pos rfl]
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The host's layer on a stack of M rows, at entry (p, q). -/
theorem dense_host_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral D prec A B) (broadcastInDim ⟨2, ![M, N]⟩ ![0, 1] h2 (broadcastInDim ⟨2, ![1, N]⟩ ![1] h1 b)) (ix2 p q)
      = aff (fun l q => B (ix2 l q)) (fun q => b (ix1 q)) (fun l => A (ix2 p l)) q := by
  rw [addf_apply, dotGeneral_plain_apply D hD, host_bias_apply]
  rfl

end Cert.Vae

end
-- ==== Proof.Pointwise.lean ====
/-
  The elementwise steps of the network read at one index on the extended reals: the sampling formula
  mean + exp (½ · log-variance) · noise as the vector unit spells it (the scalar one half splat over the block)
  and as the host spells it (a scale array, there the rank-0 constant broadcast to the array), and tanh in both spellings.
-/
import Idealize.ShloMosaic.Lib.ValueIdx
import Idealize.ShloMosaic.Lib.Pipeline.Value
import Idealize.ShloMosaic.Lib.IdealHost
import Idealize.ShloMosaic.PureOps.Ideal.Laws

noncomputable section

namespace Cert.Vae

open Idealize.ShloMosaic Idealize.ShloMosaic.ValueIdx

variable {s : Shape} {φ : FTy}

/-- The vector unit's sampling step at an index: the splat scalar multiplies the log-variance entry. -/
theorem sample_unit_apply (mu ls eps : FVec Ideal s .f32) (c : Ideal .f32) (i : s.Idx) :
    addf mu (mulf (exp (mulf (broadcast s c) ls)) eps) i = mu i + Ideal.exp (c * ls i) * eps i := rfl

/-- The host's sampling step at an index, the scale array read at that index (for the reference it is the rank-0
    constant one half broadcast to the array, which reads its one word everywhere). -/
theorem sample_host_apply (mu ls eps cv : FVec Ideal s .f32) (i : s.Idx) :
    addf mu (mulf (Host.exp (mulf cv ls)) eps) i = mu i + Ideal.exp (cv i * ls i) * eps i := rfl

/-- The vector unit's tanh at an index. -/
theorem tanh_unit_apply (a : FVec Ideal s φ) (i : s.Idx) : tanh a i = Ideal.tanh (a i) := rfl

/-- The host's tanh at an index: the same function of the entry. -/
theorem tanh_host_apply (a : FVec Ideal s φ) (i : s.Idx) : Host.tanh a i = Ideal.tanh (a i) := rfl

end Cert.Vae

end
-- ==== Proof.KernelRow.lean ====
/-
  The kernel's body at one batch tile: what it stores at row p, column o of its 1024 × 784 output block is the
  network's row function of row p of the tile's three data blocks (the input, the latent noise, the output noise),
  with the weights and biases read off the resident blocks — weight blocks indexed (input, output), bias blocks one
  row.  Rounding to the narrow format is the identity on the extended reals, so it drops out.
-/
import proofs.«151756_j7782480740489_1_alg».proof.Proof.Gen.KernelIdeal.Skeleton
import proofs.«151756_j7782480740489_1_alg».proof.Proof.Layers
import proofs.«151756_j7782480740489_1_alg».proof.Proof.Pointwise

noncomputable section

namespace Cert.Vae.KernelRow

open Idealize.ShloMosaic Idealize.ShloMosaic.ValueIdx Cert.Gcn Cert.Vae Cert.KernelIdeal Cert.KernelIdeal.Gen

/-- Each of the body's four products contracts the left columns with the right rows and has no batch axis. -/
theorem plain1 : IsPlain dot_S1024x784_S784x50_S1024x50_1_0_0_1_n_n := ⟨rfl, rfl, rfl, rfl, rfl, rfl⟩
theorem plain2 : IsPlain dot_S1024x50_S50x25_S1024x25_1_0_0_1_n_n := ⟨rfl, rfl, rfl, rfl, rfl, rfl⟩
theorem plain3 : IsPlain dot_S1024x25_S25x100_S1024x100_1_0_0_1_n_n := ⟨rfl, rfl, rfl, rfl, rfl, rfl⟩
theorem plain4 : IsPlain dot_S1024x100_S100x784_S1024x784_1_0_0_1_n_n := ⟨rfl, rfl, rfl, rfl, rfl, rfl⟩

/-- The stored value at (p, o) is the network's row function of row p of the data blocks. -/
theorem pay_apply (x0 : Vec Ideal S1024x784 .f32) (x1 : Vec Ideal S1024x25 .f32) (x2 : Vec Ideal S1024x784 .f32)
    (w1 : Vec Ideal S784x50 .bf16) (r1 : Vec Ideal S1x50 .f32) (w2 : Vec Ideal S50x25 .bf16) (r2 : Vec Ideal S1x25 .f32)
    (w3 : Vec Ideal S50x25 .bf16) (r3 : Vec Ideal S1x25 .f32) (w4 : Vec Ideal S25x100 .bf16) (r4 : Vec Ideal S1x100 .f32)
    (w5 : Vec Ideal S100x784 .bf16) (r5 : Vec Ideal S1x784 .f32) (w6 : Vec Ideal S100x784 .bf16) (r6 : Vec Ideal S1x784 .f32)
    (p : Fin 1024) (o : Fin 784) :
    k0_pay1 (F := Ideal) (k0_pay2 (F := Ideal) x0 w1 r1 w2 r2 w3 r3 x1 w4) r4 w5 r5 w6 r6 x2 (ix2 p o)
      = net (fun l q => w1 (ix2 l q)) (fun q => r1 (ix2 (0 : Fin 1) q)) (fun l q => w2 (ix2 l q)) (fun q => r2 (ix2 (0 : Fin 1) q))
          (fun l q => w3 (ix2 l q)) (fun q => r3 (ix2 (0 : Fin 1) q)) (fun l q => w4 (ix2 l q)) (fun q => r4 (ix2 (0 : Fin 1) q))
          (fun l q => w5 (ix2 l q)) (fun q => r5 (ix2 (0 : Fin 1) q)) (fun l q => w6 (ix2 l q)) (fun q => r6 (ix2 (0 : Fin 1) q))
          (fun l => x0 (ix2 p l)) (fun a => x1 (ix2 p a)) (fun a => x2 (ix2 p a)) o := by
  unfold k0_pay1 k0_pay2
  simp only [shapeCast_self]
  simp only [sample_unit_apply, dense_unit_apply _ plain1, dense_unit_apply _ plain2, dense_unit_apply _ plain3,
    dense_unit_apply _ plain4, truncf_apply, tanh_unit_apply]
  rfl

end Cert.Vae.KernelRow

end
-- ==== Proof.Spec.lean ====
/-
  The result array both programs end with, as one function of the argument arrays, index by index: entry (n, o) is the
  network's row function of batch row n — row n of the flattened input, of the latent noise and of the output noise —
  evaluated at o.  The weight matrices are stored (output, input), so the row function's weight at (input l, output q)
  is the matrix's entry (q, l); the biases are plain vectors.  The flattened input is taken as given (both programs
  flatten the images by the same reshape before anything else).
-/
import proofs.«151756_j7782480740489_1_alg».proof.Proof.Layers

noncomputable section

namespace Cert.Vae

open Idealize.ShloMosaic Idealize.ShloMosaic.ValueIdx

/-- The resampled reconstruction of the whole batch. -/
def G (xf : FVec Ideal ⟨2, ![131072, 784]⟩ .f32) (ez : FVec Ideal ⟨2, ![131072, 25]⟩ .f32) (ex : FVec Ideal ⟨2, ![131072, 784]⟩ .f32)
    (W1 : FVec Ideal ⟨2, ![50, 784]⟩ .f32) (B1 : FVec Ideal ⟨1, ![50]⟩ .f32)
    (W2 : FVec Ideal ⟨2, ![25, 50]⟩ .f32) (B2 : FVec Ideal ⟨1, ![25]⟩ .f32)
    (W3 : FVec Ideal ⟨2, ![25, 50]⟩ .f32) (B3 : FVec Ideal ⟨1, ![25]⟩ .f32)
    (W4 : FVec Ideal ⟨2, ![100, 25]⟩ .f32) (B4 : FVec Ideal ⟨1, ![100]⟩ .f32)
    (W5 : FVec Ideal ⟨2, ![784, 100]⟩ .f32) (B5 : FVec Ideal ⟨1, ![784]⟩ .f32)
    (W6 : FVec Ideal ⟨2, ![784, 100]⟩ .f32) (B6 : FVec Ideal ⟨1, ![784]⟩ .f32) :
    FVec Ideal ⟨2, ![131072, 784]⟩ .f32 := fun i =>
  net (fun l q => W1 (ix2 q l)) (fun q => B1 (ix1 q)) (fun l q => W2 (ix2 q l)) (fun q => B2 (ix1 q))
    (fun l q => W3 (ix2 q l)) (fun q => B3 (ix1 q)) (fun l q => W4 (ix2 q l)) (fun q => B4 (ix1 q))
    (fun l q => W5 (ix2 q l)) (fun q => B5 (ix1 q)) (fun l q => W6 (ix2 q l)) (fun q => B6 (ix1 q))
    (fun l => xf (ix2 (i 0) l)) (fun a => ez (ix2 (i 0) a)) (fun a => ex (ix2 (i 0) a)) (i 1)

end Cert.Vae

end
-- ==== Proof.KernelValue.lean ====
/-
  The kernel's result array is the specification.  Tile t writes back a 1024 × 784 block whose entry (p, o) is the
  network's row function of row p of the tile's data blocks; those rows are batch row 1024·t + p of the arrays, the
  resident weight blocks are the transposed matrices (so the weight at (input l, output q) is the stored matrix's
  entry (q, l)) and the resident bias blocks are the bias vectors as one row.  Hence the block is exactly that tile
  of the specification.  Every batch row n lies in tile n / 1024, so the 128 tiles cover the array.
-/
import proofs.«151756_j7782480740489_1_alg».proof.Proof.KernelBlocks
import proofs.«151756_j7782480740489_1_alg».proof.Proof.KernelRow
import proofs.«151756_j7782480740489_1_alg».proof.Proof.Spec

noncomputable section

namespace Cert.Vae.KernelValue

open Idealize.ShloMosaic Idealize.ShloMosaic.TcCoe Idealize.SL.Sem Idealize.ShloMosaic.ValueIdx
open Idealize.ShloMosaic.Pipeline (Dat)
open Cert.Vae Cert.Vae.KernelBlocks Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-! ## Block entries in terms of the argument arrays -/

/-- The flattened input as the region finds it. -/
abbrev flat (c : Dev nD) : FVec Ideal S131072x784 .f32 :=
  shapeCast S131072x784 (m ((c : Thread nD τ).loc main_arg0)) shapeCasts_S131072x28x28_S131072x784

/-- Row p of the tile's input block is batch row 1024·t + p of the flattened input. -/
theorem x_at (c : Dev nD) (t : Fin cfg0.N) (p : Fin 1024) (l : Fin 784) :
    (iblk m c 0 t : Vec Ideal S1024x784 .f32) (ix2 p l) = flat m c (ix2 (row t p) l) := by
  rw [blk0_apply, found_main_v0]
/-- Row p of the tile's latent-noise block is batch row 1024·t + p of the latent noise. -/
theorem ez_at (c : Dev nD) (t : Fin cfg0.N) (p : Fin 1024) (a : Fin 25) :
    (iblk m c 1 t : Vec Ideal S1024x25 .f32) (ix2 p a) = ((m ((c : Thread nD τ).loc main_arg1)) : S131072x25.Idx → EReal) (ix2 (row t p) a) := by
  rw [blk1_apply, V_main_arg1]
/-- Row p of the tile's output-noise block is batch row 1024·t + p of the output noise. -/
theorem ex_at (c : Dev nD) (t : Fin cfg0.N) (p : Fin 1024) (a : Fin 784) :
    (iblk m c 2 t : Vec Ideal S1024x784 .f32) (ix2 p a) = ((m ((c : Thread nD τ).loc main_arg2)) : S131072x784.Idx → EReal) (ix2 (row t p) a) := by
  rw [blk2_apply, V_main_arg2]

/-- A resident weight block at (input l, output q) is the stored matrix at (q, l). -/
theorem w1_at (c : Dev nD) (t : Fin cfg0.N) (l : Fin 784) (q : Fin 50) :
    (iblk m c 3 t : Vec Ideal S784x50 .bf16) (ix2 l q) = ((m ((c : Thread nD τ).loc main_arg3)) : S50x784.Idx → EReal) (ix2 q l) := by
  rw [blk3_apply, found_main_v2, truncf_apply, transpose_ix2_apply]
theorem w2_at (c : Dev nD) (t : Fin cfg0.N) (l : Fin 50) (q : Fin 25) :
    (iblk m c 5 t : Vec Ideal S50x25 .bf16) (ix2 l q) = ((m ((c : Thread nD τ).loc main_arg5)) : S25x50.Idx → EReal) (ix2 q l) := by
  rw [blk5_apply, found_main_v4, truncf_apply, transpose_ix2_apply]
theorem w3_at (c : Dev nD) (t : Fin cfg0.N) (l : Fin 50) (q : Fin 25) :
    (iblk m c 7 t : Vec Ideal S50x25 .bf16) (ix2 l q) = ((m ((c : Thread nD τ).loc main_arg7)) : S25x50.Idx → EReal) (ix2 q l) := by
  rw [blk7_apply, found_main_v6, truncf_apply, transpose_ix2_apply]
theorem w4_at (c : Dev nD) (t : Fin cfg0.N) (l : Fin 25) (q : Fin 100) :
    (iblk m c 9 t : Vec Ideal S25x100 .bf16) (ix2 l q) = ((m ((c : Thread nD τ).loc main_arg9)) : S100x25.Idx → EReal) (ix2 q l) := by
  rw [blk9_apply, found_main_v8, truncf_apply, transpose_ix2_apply]
theorem w5_at (c : Dev nD) (t : Fin cfg0.N) (l : Fin 100) (q : Fin 784) :
    (iblk m c 11 t : Vec Ideal S100x784 .bf16) (ix2 l q) = ((m ((c : Thread nD τ).loc main_arg11)) : S784x100.Idx → EReal) (ix2 q l) := by
  rw [blk11_apply, found_main_v10, truncf_apply, transpose_ix2_apply]
theorem w6_at (c : Dev nD) (t : Fin cfg0.N) (l : Fin 100) (q : Fin 784) :
    (iblk m c 13 t : Vec Ideal S100x784 .bf16) (ix2 l q) = ((m ((c : Thread nD τ).loc main_arg13)) : S784x100.Idx → EReal) (ix2 q l) := by
  rw [blk13_apply, found_main_v12, truncf_apply, transpose_ix2_apply]

/-- A resident bias block's one row at q is the bias vector at q. -/
theorem b1_at (c : Dev nD) (t : Fin cfg0.N) (q : Fin 50) :
    (iblk m c 4 t : Vec Ideal S1x50 .f32) (ix2 (0 : Fin 1) q) = ((m ((c : Thread nD τ).loc main_arg4)) : S50.Idx → EReal) (ix1 q) := by
  rw [blk4_apply, found_main_v13, shapeCast_a_1a_apply]
theorem b2_at (c : Dev nD) (t : Fin cfg0.N) (q : Fin 25) :
    (iblk m c 6 t : Vec Ideal S1x25 .f32) (ix2 (0 : Fin 1) q) = ((m ((c : Thread nD τ).loc main_arg6)) : S25.Idx → EReal) (ix1 q) := by
  rw [blk6_apply, found_main_v14, shapeCast_a_1a_apply]
theorem b3_at (c : Dev nD) (t : Fin cfg0.N) (q : Fin 25) :
    (iblk m c 8 t : Vec Ideal S1x25 .f32) (ix2 (0 : Fin 1) q) = ((m ((c : Thread nD τ).loc main_arg8)) : S25.Idx → EReal) (ix1 q) := by
  rw [blk8_apply, found_main_v15, shapeCast_a_1a_apply]
theorem b4_at (c : Dev nD) (t : Fin cfg0.N) (q : Fin 100) :
    (iblk m c 10 t : Vec Ideal S1x100 .f32) (ix2 (0 : Fin 1) q) = ((m ((c : Thread nD τ).loc main_arg10)) : S100.Idx → EReal) (ix1 q) := by
  rw [blk10_apply, found_main_v16, shapeCast_a_1a_apply]
theorem b5_at (c : Dev nD) (t : Fin cfg0.N) (q : Fin 784) :
    (iblk m c 12 t : Vec Ideal S1x784 .f32) (ix2 (0 : Fin 1) q) = ((m ((c : Thread nD τ).loc main_arg12)) : S784.Idx → EReal) (ix1 q) := by
  rw [blk12_apply, found_main_v17, shapeCast_a_1a_apply]
theorem b6_at (c : Dev nD) (t : Fin cfg0.N) (q : Fin 784) :
    (iblk m c 14 t : Vec Ideal S1x784 .f32) (ix2 (0 : Fin 1) q) = ((m ((c : Thread nD τ).loc main_arg14)) : S784.Idx → EReal) (ix1 q) := by
  rw [blk14_apply, found_main_v18, shapeCast_a_1a_apply]

/-! ## One tile's write-back, the cover, the array -/

/-- The stored value at entry (p, o) of a tile, once its blocks' entries are known as functions of coordinates: the
    network's row function of those. -/
theorem pay_eq_net (x0 : Vec Ideal S1024x784 .f32) (x1 : Vec Ideal S1024x25 .f32) (x2 : Vec Ideal S1024x784 .f32)
    (w1 : Vec Ideal S784x50 .bf16) (r1 : Vec Ideal S1x50 .f32) (w2 : Vec Ideal S50x25 .bf16) (r2 : Vec Ideal S1x25 .f32)
    (w3 : Vec Ideal S50x25 .bf16) (r3 : Vec Ideal S1x25 .f32) (w4 : Vec Ideal S25x100 .bf16) (r4 : Vec Ideal S1x100 .f32)
    (w5 : Vec Ideal S100x784 .bf16) (r5 : Vec Ideal S1x784 .f32) (w6 : Vec Ideal S100x784 .bf16) (r6 : Vec Ideal S1x784 .f32)
    (p : Fin 1024) (o : Fin 784)
    (W1 : Fin 784 → Fin 50 → EReal) (hW1 : ∀ l q, w1 (ix2 l q) = W1 l q) (B1 : Fin 50 → EReal) (hB1 : ∀ q, r1 (ix2 (0 : Fin 1) q) = B1 q)
    (W2 : Fin 50 → Fin 25 → EReal) (hW2 : ∀ l q, w2 (ix2 l q) = W2 l q) (B2 : Fin 25 → EReal) (hB2 : ∀ q, r2 (ix2 (0 : Fin 1) q) = B2 q)
    (W3 : Fin 50 → Fin 25 → EReal) (hW3 : ∀ l q, w3 (ix2 l q) = W3 l q) (B3 : Fin 25 → EReal) (hB3 : ∀ q, r3 (ix2 (0 : Fin 1) q) = B3 q)
    (W4 : Fin 25 → Fin 100 → EReal) (hW4 : ∀ l q, w4 (ix2 l q) = W4 l q) (B4 : Fin 100 → EReal) (hB4 : ∀ q, r4 (ix2 (0 : Fin 1) q) = B4 q)
    (W5 : Fin 100 → Fin 784 → EReal) (hW5 : ∀ l q, w5 (ix2 l q) = W5 l q) (B5 : Fin 784 → EReal) (hB5 : ∀ q, r5 (ix2 (0 : Fin 1) q) = B5 q)
    (W6 : Fin 100 → Fin 784 → EReal) (hW6 : ∀ l q, w6 (ix2 l q) = W6 l q) (B6 : Fin 784 → EReal) (hB6 : ∀ q, r6 (ix2 (0 : Fin 1) q) = B6 q)
    (X : Fin 784 → EReal) (hX : ∀ l, x0 (ix2 p l) = X l) (EZ : Fin 25 → EReal) (hEZ : ∀ a, x1 (ix2 p a) = EZ a)
    (EX : Fin 784 → EReal) (hEX : ∀ a, x2 (ix2 p a) = EX a) :
    k0_pay1 (F := Ideal) (k0_pay2 (F := Ideal) x0 w1 r1 w2 r2 w3 r3 x1 w4) r4 w5 r5 w6 r6 x2 (ix2 p o)
      = net W1 B1 W2 B2 W3 B3 W4 B4 W5 B5 W6 B6 X EZ EX o := by
  rw [KernelRow.pay_apply]
  simp only [hW1, hB1, hW2, hB2, hW3, hB3, hW4, hB4, hW5, hB5, hW6, hB6, hX, hEZ, hEX]

/-- The specification of the arguments as launched. -/
abbrev result (c : Dev nD) : FVec Ideal S131072x784 .f32 :=
  G (flat m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- What tile t writes back is tile t of the specification. -/
theorem flushed_eq (c : Dev nD) (t : Fin cfg0.N) :
    (dats m 0 c).flushed 15 t = ((cfg0.win 15).blk t).view.read (Elt Ideal) (result m c) := by
  rw [Value.flushed15]
  unfold out0_15
  rw [View.canon_unit_zero hz]
  simp only [View.ld_unit_zero (S := S1024x784) hz, View.ld_unit_zero (S := S1024x25) hz, View.ld_unit_zero (S := S784x50) hz,
    View.ld_unit_zero (S := S1x50) hz, View.ld_unit_zero (S := S50x25) hz, View.ld_unit_zero (S := S1x25) hz,
    View.ld_unit_zero (S := S25x100) hz, View.ld_unit_zero (S := S1x100) hz, View.ld_unit_zero (S := S100x784) hz,
    View.ld_unit_zero (S := S1x784) hz]
  refine funext fun (y : S1024x784.Idx) => ?_
  obtain ⟨p, o, rfl⟩ : ∃ (p : Fin 1024) (o : Fin 784), y = ix2 p o := ⟨y 0, y 1, eq_ix2 y⟩
  show k0_pay1 (F := Ideal) (k0_pay2 (F := Ideal) (iblk m c 0 t) (iblk m c 3 t) (iblk m c 4 t) (iblk m c 5 t) (iblk m c 6 t)
        (iblk m c 7 t) (iblk m c 8 t) (iblk m c 1 t) (iblk m c 9 t)) (iblk m c 10 t) (iblk m c 11 t) (iblk m c 12 t)
        (iblk m c 13 t) (iblk m c 14 t) (iblk m c 2 t) (ix2 p o)
      = result m c (((cfg0.win 15).blk t).view.emb (ix2 p o : S1024x784.Idx))
  rw [out_emb t (ix2 p o)]
  show _ = result m c (ix2 (row t p) o)
  exact pay_eq_net (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t) p o
    (fun l q => ((m ((c : Thread nD τ).loc main_arg3)) : S50x784.Idx → EReal) (ix2 q l)) (w1_at m c t) (fun q => ((m ((c : Thread nD τ).loc main_arg4)) : S50.Idx → EReal) (ix1 q)) (b1_at m c t)
    (fun l q => ((m ((c : Thread nD τ).loc main_arg5)) : S25x50.Idx → EReal) (ix2 q l)) (w2_at m c t) (fun q => ((m ((c : Thread nD τ).loc main_arg6)) : S25.Idx → EReal) (ix1 q)) (b2_at m c t)
    (fun l q => ((m ((c : Thread nD τ).loc main_arg7)) : S25x50.Idx → EReal) (ix2 q l)) (w3_at m c t) (fun q => ((m ((c : Thread nD τ).loc main_arg8)) : S25.Idx → EReal) (ix1 q)) (b3_at m c t)
    (fun l q => ((m ((c : Thread nD τ).loc main_arg9)) : S100x25.Idx → EReal) (ix2 q l)) (w4_at m c t) (fun q => ((m ((c : Thread nD τ).loc main_arg10)) : S100.Idx → EReal) (ix1 q)) (b4_at m c t)
    (fun l q => ((m ((c : Thread nD τ).loc main_arg11)) : S784x100.Idx → EReal) (ix2 q l)) (w5_at m c t) (fun q => ((m ((c : Thread nD τ).loc main_arg12)) : S784.Idx → EReal) (ix1 q)) (b5_at m c t)
    (fun l q => ((m ((c : Thread nD τ).loc main_arg13)) : S784x100.Idx → EReal) (ix2 q l)) (w6_at m c t) (fun q => ((m ((c : Thread nD τ).loc main_arg14)) : S784.Idx → EReal) (ix1 q)) (b6_at m c t)
    (fun l => flat m c (ix2 (row t p) l)) (x_at m c t p)
    (fun a => ((m ((c : Thread nD τ).loc main_arg1)) : S131072x25.Idx → EReal) (ix2 (row t p) a)) (ez_at m c t p)
    (fun a => ((m ((c : Thread nD τ).loc main_arg2)) : S131072x784.Idx → EReal) (ix2 (row t p) a)) (ex_at m c t p)

/-- An index of the array is in tile t's block iff each coordinate is in the block's range on its axis. -/
theorem mem_blk (t : Fin cfg0.N) (i : S131072x784.Idx) :
    i ∈ ((cfg0.win 15).blk t).view.set ↔ ∀ a : Fin 2, win0_15.index t a * S1024x784.size a ≤ (i a).val
      ∧ (i a).val < win0_15.index t a * S1024x784.size a + S1024x784.size a := by
  show i ∈ ((View.whole main_v19).slice (win0_15.rect t)).set ↔ _
  rw [View.set_slice_whole, Rect.mem_set_unit]
  exact Iff.rfl

/-- Batch row n lies in tile n / 1024: the tiles cover the array. -/
theorem cover (i : S131072x784.Idx) :
    ∃ t : Fin cfg0.N, (cfg0.win 15).flush t = true ∧ i ∈ ((cfg0.win 15).blk t).view.set := by
  have hi0 : (i 0).val < 131072 := (i 0).isLt
  have hi1 : (i 1).val < 784 := (i 1).isLt
  have hN : cfg0.N = 128 := N_0
  have hlt : (i 0).val / 1024 < cfg0.N := by rw [hN]; omega
  have h := at15 ⟨(i 0).val / 1024, hlt⟩
  refine ⟨⟨(i 0).val / 1024, hlt⟩, flush0_15 _, ?_⟩
  rw [mem_blk]
  intro a
  match a with
  | ⟨0, _⟩ =>
    show win0_15.index ⟨(i 0).val / 1024, hlt⟩ (0 : Fin 2) * 1024 ≤ (i 0).val
      ∧ (i 0).val < win0_15.index ⟨(i 0).val / 1024, hlt⟩ (0 : Fin 2) * 1024 + 1024
    rw [h.1]
    show (i 0).val / 1024 * 1024 ≤ (i 0).val ∧ (i 0).val < (i 0).val / 1024 * 1024 + 1024
    omega
  | ⟨1, _⟩ =>
    show win0_15.index ⟨(i 0).val / 1024, hlt⟩ (1 : Fin 2) * 784 ≤ (i 1).val
      ∧ (i 1).val < win0_15.index ⟨(i 0).val / 1024, hlt⟩ (1 : Fin 2) * 784 + 784
    rw [h.2]
    omega

/-- The result array after the run is the specification. -/
theorem final (c : Dev nD) : (dats m 0 c).arrAt 15 cfg0.N = result m c :=
  (dats m 0 c).arrAt_eq_of_cover 15 (result m c) (fun t _ => flushed_eq m c t) cover

/-- The run, read: the result array at the specification, the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Value.run_blocks m ρ)

end Cert.Vae.KernelValue

end
-- ==== Proof.RefRow.lean ====
/-
  The reference's result is the specification: its run's term, read at entry (n, o), is layer by layer the network's
  row function of batch row n.  Each of its products is a plain sum over the contracted coordinate, each transposed
  weight matrix read at (l, q) is the stored matrix at (q, l), each bias broadcast reads the bias vector, and the
  host's tanh and exp are the same functions of an entry as the vector unit's.
-/
import proofs.«151756_j7782480740489_1_alg».proof.Proof.Gen.ReferenceIdeal.Read
import proofs.«151756_j7782480740489_1_alg».proof.Proof.Spec
import proofs.«151756_j7782480740489_1_alg».proof.Proof.Pointwise
import Idealize.ShloMosaic.Lib.ValueLayout
import Idealize.ShloMosaic.Lib.IdealHost

noncomputable section

namespace Cert.Vae.RefRow

open Idealize.ShloMosaic Idealize.ShloMosaic.TcCoe Idealize.ShloMosaic.ValueIdx Cert.Gcn Cert.Vae
open Cert.ReferenceIdeal Cert.ReferenceIdeal.Gen Cert.ReferenceIdeal.Value

/-- Each of the reference's four kinds of product contracts the left columns with the right rows, no batch axis. -/
theorem plain1 : IsPlain dot_S131072x784_S784x50_S131072x50_1_0_0_1_n_n := ⟨rfl, rfl, rfl, rfl, rfl, rfl⟩
theorem plain2 : IsPlain dot_S131072x50_S50x25_S131072x25_1_0_0_1_n_n := ⟨rfl, rfl, rfl, rfl, rfl, rfl⟩
theorem plain3 : IsPlain dot_S131072x25_S25x100_S131072x100_1_0_0_1_n_n := ⟨rfl, rfl, rfl, rfl, rfl, rfl⟩
theorem plain4 : IsPlain dot_S131072x100_S100x784_S131072x784_1_0_0_1_n_n := ⟨rfl, rfl, rfl, rfl, rfl, rfl⟩

/-- The last stage of the reference, as a function of the fifteen argument arrays, is the specification of them
    (the input flattened by the reference's own reshape). -/
theorem stage_eq (x0 : FVec Ideal S131072x28x28 .f32) (x1 : FVec Ideal S131072x25 .f32) (x2 : FVec Ideal S131072x784 .f32) (x3 : FVec Ideal S50x784 .f32) (x4 : FVec Ideal S50 .f32) (x5 : FVec Ideal S25x50 .f32) (x6 : FVec Ideal S25 .f32) (x7 : FVec Ideal S25x50 .f32) (x8 : FVec Ideal S25 .f32) (x9 : FVec Ideal S100x25 .f32) (x10 : FVec Ideal S100 .f32) (x11 : FVec Ideal S784x100 .f32) (x12 : FVec Ideal S784 .f32) (x13 : FVec Ideal S784x100 .f32) (x14 : FVec Ideal S784 .f32) :
    Read.val_main_v42 (F := Ideal) x0 x1 x2 x3 x4 x5 x6 x7 x8 x9 x10 x11 x12 x13 x14
      = G (shapeCast S131072x784 x0 shapeCasts_S131072x28x28_S131072x784) x1 x2 x3 x4 x5 x6 x7 x8 x9 x10 x11 x12 x13 x14 := by
  funext i
  obtain ⟨n, o, rfl⟩ : ∃ (n : Fin 131072) (o : Fin 784), i = ix2 n o := ⟨i 0, i 1, eq_ix2 i⟩
  simp only [Read.val_main_v42, Read.val_main_v41, Read.val_main_v40, Read.val_main_v39, Read.val_main_v38, Read.val_main_cst_0, Read.val_main_v37, Read.val_main_v36, Read.val_main_v35, Read.val_main_v34, Read.val_main_v33, Read.val_main_v32, Read.val_main_v31, Read.val_main_v30, Read.val_main_v29, Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_cst, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0]
  simp only [sample_host_apply, dense_host_apply _ plain1, dense_host_apply _ plain2, dense_host_apply _ plain3,
    dense_host_apply _ plain4, tanh_host_apply,
    transpose_ix2_apply _ transposes_S50x784_S784x50_1_0, transpose_ix2_apply _ transposes_S25x50_S50x25_1_0,
    transpose_ix2_apply _ transposes_S100x25_S25x100_1_0, transpose_ix2_apply _ transposes_S784x100_S100x784_1_0,
    broadcastInDim_scalar_apply bcast_S_S131072x25, broadcastInDim_scalar_apply bcast_S_S131072x784, constant_apply]
  rfl

/-- The run's result term is the specification of the arguments as launched. -/
theorem res_eq (m : (ℓ : Loc nD τ sig) → Buf (Elt Ideal) ℓ) (c : Dev nD) :
    res_main_v42 (F := Ideal) m c
      = G (shapeCast S131072x784 (m ((c.tc : Thread nD τ).loc main_arg0)) shapeCasts_S131072x28x28_S131072x784)
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12))
          (m ((c.tc : Thread nD τ).loc main_arg13)) (m ((c.tc : Thread nD τ).loc main_arg14)) :=
  (Read.val_main_v42_eq m c).trans (stage_eq _ _ _ _ _ _ _ _ _ _ _ _ _ _ _)

end Cert.Vae.RefRow

end
-- ==== Proof.lean ====
/-
  A variational autoencoder's forward pass on a batch of 131072 images, one Pallas kernel over 128 batch tiles of 1024
  rows against the plain reference: encoder (a 784 → 50 layer and tanh, then a mean and a log-variance layer 50 → 25),
  the reparameterised latent  mean + exp (½ · log-variance) · noise,  decoder (25 → 100 and tanh, then a mean and a
  log-variance layer 100 → 784) and the same resampling with the second noise.

  On the extended reals the two programs compute one function.  The kernel rounds its matrix operands to the narrow
  format, which is the identity there; its products into a zero accumulator and the reference's contractions are the
  same plain sums over the contracted coordinate, taken in the same order with the same factors; both spell one half by
  the same word; tanh and exp are the same functions of an entry.  So no algebraic law is needed, and the finiteness of
  the inputs is never used: the result is equal term by term.

  Every batch row is computed on its own.  The specification (Proof/Spec.lean) is the row function (Proof/Layers.lean)
  applied to each batch row.  The reference's run term is that specification read layer by layer (Proof/RefRow.lean).
  On the kernel's side, entry (p, o) of what tile t stores is the row function of row p of the tile's blocks
  (Proof/KernelRow.lean), those blocks are rows 1024·t + p of the arrays and the whole weight and bias arrays as the
  host laid them out (Proof/KernelBlocks.lean), and the 128 tiles cover the result (Proof/KernelValue.lean).
  The frames of the two kernel programs are their generated frame runs, the reference's frame is its run with the
  result dropped, and the idealization rewrote no operation, so there is nothing to preserve.
-/
import proofs.«151756_j7782480740489_1_alg».proof.Defs
import proofs.«151756_j7782480740489_1_alg».proof.Proof.Gen.Kernel
import proofs.«151756_j7782480740489_1_alg».proof.Proof.Gen.Kernel.Skeleton
import proofs.«151756_j7782480740489_1_alg».proof.Proof.Gen.Kernel.Launch
import proofs.«151756_j7782480740489_1_alg».proof.Proof.Gen.Kernel.Points
import proofs.«151756_j7782480740489_1_alg».proof.Proof.Gen.Kernel.Frame
import proofs.«151756_j7782480740489_1_alg».proof.Proof.Gen.KernelIdeal
import proofs.«151756_j7782480740489_1_alg».proof.Proof.Gen.KernelIdeal.Skeleton
import proofs.«151756_j7782480740489_1_alg».proof.Proof.Gen.KernelIdeal.Launch
import proofs.«151756_j7782480740489_1_alg».proof.Proof.Gen.KernelIdeal.Points
import proofs.«151756_j7782480740489_1_alg».proof.Proof.Gen.KernelIdeal.Frame
import proofs.«151756_j7782480740489_1_alg».proof.Proof.Gen.ReferenceIdeal
import proofs.«151756_j7782480740489_1_alg».proof.Proof.Gen.Pre_finite_inputs
import proofs.«151756_j7782480740489_1_alg».proof.Proof.Gen.KernelIdeal.Value
import proofs.«151756_j7782480740489_1_alg».proof.Proof.Gen.ReferenceIdeal.Run
import proofs.«151756_j7782480740489_1_alg».proof.Proof.Gen.ReferenceIdeal.Read
import proofs.«151756_j7782480740489_1_alg».proof.Proof.KernelValue
import proofs.«151756_j7782480740489_1_alg».proof.Proof.RefRow
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the specification of those arguments. -/
theorem algebraic : Cert.algebraic_KernelIdeal_ReferenceIdeal := by
  intro m ρ m' ρ' _ hagree
  refine ⟨fun c => Cert.Vae.KernelValue.result m c, Cert.Vae.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.Vae.RefRow.res_eq]
  obtain ⟨h0, h1, h2, h3, h4, h5, h6, h7, h8, h9, h10, h11, h12, h13, h14⟩ := hagree c
  rw [h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
